-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200x2048 : Shape := ⟨2, ![200, 2048]⟩
abbrev S1x100000 : Shape := ⟨2, ![1, 100000]⟩
abbrev S1 : Shape := ⟨1, ![1]⟩
abbrev S_ : Shape := ⟨0, ![]⟩

class Facts : Prop where
  bcast_S_S1x100000 : S_.BroadcastsInDim S1x100000 (![] : Fin 0 → Fin S1x100000.rank)
  reducesTo_S1x100000_S_d0_1 : S1x100000.ReducesTo [0, 1] S_
  h_S_ : 0 < S_.numel
  bcast_S_S1 : S_.BroadcastsInDim S1 (![] : Fin 0 → Fin S1.rank)
  reducesTo_S1_S_d0 : S1.ReducesTo [0] S_
  bcast_S_S200x2048 : S_.BroadcastsInDim S200x2048 (![] : Fin 0 → Fin S200x2048.rank)
  reducesTo_S200x2048_S_d0_1 : S200x2048.ReducesTo [0, 1] S_

variable [Facts]

def fn {F : FTy → Type} [FloatOps F] (main_arg0 : IVec S200x2048 32) (main_arg1 : FVec F S1x100000 .f32) (main_arg2 : FVec F S1 .f32) : IVec S_ 1 :=
  let main_v0 : FVec F S1x100000 .f32 := Host.absf main_arg1
  let main_cst : FVec F S_ .f32 := constant S_ .f32 0x7F800000#32
  let main_v1 : FVec F S1x100000 .f32 := broadcastInDim S1x100000 ![] bcast_S_S1x100000 main_cst
  let main_v2 : IVec S1x100000 1 := cmpf .olt main_v0 main_v1
  let main_c : IVec S_ 1 := constantI S_ 1 1#1
  let main_v3 : IVec S_ 1 := (fun x v => Host.reduce IntOp.andi x v reducesTo_S1x100000_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_c_2 : IVec S_ 32 := constantI S_ 32 0#32
  let main_v9 : IVec S200x2048 32 := broadcastInDim S200x2048 ![] bcast_S_S200x2048 main_c_2
  let main_v10 : IVec S200x2048 1 := cmpi .sge main_arg0 main_v9
  let main_c_3 : IVec S_ 1 := constantI S_ 1 1#1
  let main_v11 : IVec S_ 1 := (fun x v => Host.reduce IntOp.andi x v reducesTo_S200x2048_S_d0_1 h_S_) main_v10 main_c_3
  let main_v12 : IVec S_ 1 := andi main_v8 main_v11
  main_v12
-- ==== Kernel.lean ====
abbrev S200x2048 : Shape := ⟨2, ![200, 2048]⟩
abbrev S1x100000 : Shape := ⟨2, ![1, 100000]⟩
abbrev S1 : Shape := ⟨1, ![1]⟩
abbrev S100000 : Shape := ⟨1, ![100000]⟩
abbrev S_ : Shape := ⟨0, ![]⟩
abbrev S100096 : Shape := ⟨1, ![100096]⟩
abbrev S1x100096 : Shape := ⟨2, ![1, 100096]⟩
abbrev S1x2048 : Shape := ⟨2, ![1, 2048]⟩
abbrev S200x1024 : Shape := ⟨2, ![200, 1024]⟩
abbrev S1x128 : Shape := ⟨2, ![1, 128]⟩
abbrev S1x1024 : Shape := ⟨2, ![1, 1024]⟩
abbrev S1x128x1 : Shape := ⟨3, ![1, 128, 1]⟩
abbrev S128x1024 : Shape := ⟨2, ![128, 1024]⟩
abbrev S8x1024 : Shape := ⟨2, ![8, 1024]⟩
abbrev S8x1x1024 : Shape := ⟨3, ![8, 1, 1024]⟩
abbrev S8x128x1024 : Shape := ⟨3, ![8, 128, 1024]⟩
abbrev S2048 : Shape := ⟨1, ![2048]⟩

abbrev nBuf : Space → Nat
  | .hbm => 13
  | .vmem => 7
  | .smem => 0
  | _ => 0

abbrev bufTy : (tb : Table) → Fin (tcTables nBuf tb) → BufTy
  | .hbm, ⟨0, _⟩ => ⟨S200x2048, .i32⟩
  | .hbm, ⟨1, _⟩ => ⟨S1x100000, .f32⟩
  | .hbm, ⟨2, _⟩ => ⟨S1, .f32⟩
  | .hbm, ⟨3, _⟩ => ⟨S100000, .f32⟩
  | .hbm, ⟨4, _⟩ => ⟨S_, .i32⟩
  | .hbm, ⟨5, _⟩ => ⟨S_, .f32⟩
  | .hbm, ⟨6, _⟩ => ⟨S100096, .f32⟩
  | .hbm, ⟨7, _⟩ => ⟨S1x100096, .f32⟩
  | .hbm, ⟨8, _⟩ => ⟨S1x2048, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .local _ .vmem, ⟨0, _⟩ => ⟨S200x1024, .i32⟩
  | .local _ .vmem, ⟨1, _⟩ => ⟨S200x1024, .i32⟩
  | .local _ .vmem, ⟨2, _⟩ => ⟨S1x128, .f32⟩
  | .local _ .vmem, ⟨3, _⟩ => ⟨S1x128, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S200x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 782], ![false, false]⟩

def k0_cond2 (i : grid0.Coords) : BitVec 1 :=
  let arg1 : BitVec 32 := BitVec.ofNat 32 (i 1).val
  let c781_i32 : BitVec 32 := 781#32
  let v241 : BitVec 1 := Scalar.cmpi .eq arg1 c781_i32
  let v242 : BitVec 32 := Scalar.extui v241
  let c0_i32_58 : BitVec 32 := 0#32
  let v243 : BitVec 1 := Scalar.cmpi .ne v242 c0_i32_58
  v243

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S200x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S1x100000_S100000 : S1x100000.ShapeCasts S100000
  pads_S100000_S100096_0960 : S100000.Pads (![0] : Fin 1 → Nat) ![96] ![0] S100096
  h_S_ : 0 < S_.numel
  bcast_S100096_S1x100096_1 : S100096.BroadcastsInDim S1x100096 (![1] : Fin 1 → Fin S1x100096.rank)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1x128x1_d1_w32 : S1x128x1.Iotas .tc 32 [1]
  inb_S200x1024_S8x1024_0_0 : ∀ a, (![0, 0] : Fin 2 → Nat) a + S8x1024.size a ≤ S200x1024.size a
  h_S8x1024 : 0 < S8x1024.numel
  shapeCasts_S8x1024_S8x1x1024 : S8x1024.ShapeCasts S8x1x1024
  broadcasts_S8x1x1024_S8x128x1024 : S8x1x1024.Broadcasts S8x128x1024
  broadcasts_S1x128x1_S8x128x1024 : S1x128x1.Broadcasts S8x128x1024
  natLt_1_32 : 1 < 32
  reduces_S8x128x1024_S128x1024 : S8x128x1024.Reduces [0] S128x1024
  inb_S200x1024_S8x1024_8_0 : ∀ a, (![8, 0] : Fin 2 → Nat) a + S8x1024.size a ≤ S200x1024.size a
  inb_S200x1024_S8x1024_16_0 : ∀ a, (![16, 0] : Fin 2 → Nat) a + S8x1024.size a ≤ S200x1024.size a
  inb_S200x1024_S8x1024_24_0 : ∀ a, (![24, 0] : Fin 2 → Nat) a + S8x1024.size a ≤ S200x1024.size a
  inb_S200x1024_S8x1024_32_0 : ∀ a, (![32, 0] : Fin 2 → Nat) a + S8x1024.size a ≤ S200x1024.size a
  inb_S200x1024_S8x1024_40_0 : ∀ a, (![40, 0] : Fin 2 → Nat) a + S8x1024.size a ≤ S200x1024.size a
  inb_S200x1024_S8x1024_48_0 : ∀ a, (![48, 0] : Fin 2 → Nat) a + S8x1024.size a ≤ S200x1024.size a
  inb_S200x1024_S8x1024_56_0 : ∀ a, (![56, 0] : Fin 2 → Nat) a + S8x1024.size a ≤ S200x1024.size a
  inb_S200x1024_S8x1024_64_0 : ∀ a, (![64, 0] : Fin 2 → Nat) a + S8x1024.size a ≤ S200x1024.size a
  inb_S200x1024_S8x1024_72_0 : ∀ a, (![72, 0] : Fin 2 → Nat) a + S8x1024.size a ≤ S200x1024.size a
  inb_S200x1024_S8x1024_80_0 : ∀ a, (![80, 0] : Fin 2 → Nat) a + S8x1024.size a ≤ S200x1024.size a
  inb_S200x1024_S8x1024_88_0 : ∀ a, (![88, 0] : Fin 2 → Nat) a + S8x1024.size a ≤ S200x1024.size a
  inb_S200x1024_S8x1024_96_0 : ∀ a, (![96, 0] : Fin 2 → Nat) a + S8x1024.size a ≤ S200x1024.size a
  inb_S200x1024_S8x1024_104_0 : ∀ a, (![104, 0] : Fin 2 → Nat) a + S8x1024.size a ≤ S200x1024.size a
  inb_S200x1024_S8x1024_112_0 : ∀ a, (![112, 0] : Fin 2 → Nat) a + S8x1024.size a ≤ S200x1024.size a
  inb_S200x1024_S8x1024_120_0 : ∀ a, (![120, 0] : Fin 2 → Nat) a + S8x1024.size a ≤ S200x1024.size a
  inb_S200x1024_S8x1024_128_0 : ∀ a, (![128, 0] : Fin 2 → Nat) a + S8x1024.size a ≤ S200x1024.size a
  inb_S200x1024_S8x1024_136_0 : ∀ a, (![136, 0] : Fin 2 → Nat) a + S8x1024.size a ≤ S200x1024.size a
  inb_S200x1024_S8x1024_144_0 : ∀ a, (![144, 0] : Fin 2 → Nat) a + S8x1024.size a ≤ S200x1024.size a
  inb_S200x1024_S8x1024_152_0 : ∀ a, (![152, 0] : Fin 2 → Nat) a + S8x1024.size a ≤ S200x1024.size a
  inb_S200x1024_S8x1024_160_0 : ∀ a, (![160, 0] : Fin 2 → Nat) a + S8x1024.size a ≤ S200x1024.size a
  inb_S200x1024_S8x1024_168_0 : ∀ a, (![168, 0] : Fin 2 → Nat) a + S8x1024.size a ≤ S200x1024.size a
  inb_S200x1024_S8x1024_176_0 : ∀ a, (![176, 0] : Fin 2 → Nat) a + S8x1024.size a ≤ S200x1024.size a
  inb_S200x1024_S8x1024_184_0 : ∀ a, (![184, 0] : Fin 2 → Nat) a + S8x1024.size a ≤ S200x1024.size a
  inb_S200x1024_S8x1024_192_0 : ∀ a, (![192, 0] : Fin 2 → Nat) a + S8x1024.size a ≤ S200x1024.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x2048_S2048 : S1x2048.ShapeCasts S2048
  shapeCasts_S1_S_ : S1.ShapeCasts S_
  bcast_S_S2048 : S_.BroadcastsInDim S2048 (![] : Fin 0 → Fin S2048.rank)
  dot_S1x128_S128x1024_S1x1024_1_0_0_1_n_n_wf : DotDims.WF S1x128 S128x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x1024.size a ≤ S200x2048.size a
  hwx0_0 : ∀ i : grid0.Coords, EltTy.bits .i32 = 32 ∨ (Rect.block (s := S200x2048) S200x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x100096.size a
  hwx0_1 : ∀ i : grid0.Coords, EltTy.bits .f32 = 32 ∨ (Rect.block (s := S1x100096) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x2048.size a
  hwx0_2 : ∀ i : grid0.Coords, EltTy.bits .f32 = 32 ∨ (Rect.block (s := S1x2048) S1x1024.size (cc0_transform_2 i) (hinb0_2 i)).WholeWords (EltTy.packing .f32)

variable [Facts₀]

def dot_S1x128_S128x1024_S1x1024_1_0_0_1_n_n : DotDims S1x128 S128x1024 S1x1024 where
  lhsContracting := [1]
  rhsContracting := [0]
  lhsNonContracting := [0]
  rhsNonContracting := [1]
  lhsBatch := []
  rhsBatch := []
  wf := dot_S1x128_S128x1024_S1x1024_1_0_0_1_n_n_wf

abbrev win0_0 : Pipeline.Window sig grid0 :=
  Pipeline.Window.ofSpec (Memref.whole main_arg0) S200x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S200x2048 : Shape := ⟨2, ![200, 2048]⟩
abbrev S1x100000 : Shape := ⟨2, ![1, 100000]⟩
abbrev S1 : Shape := ⟨1, ![1]⟩
abbrev S2048 : Shape := ⟨1, ![2048]⟩
abbrev S1x2048 : Shape := ⟨2, ![1, 2048]⟩
abbrev S_ : Shape := ⟨0, ![]⟩
abbrev S2048x100000 : Shape := ⟨2, ![2048, 100000]⟩
abbrev S200x2048x1 : Shape := ⟨3, ![200, 2048, 1]⟩
abbrev S200x2048x2 : Shape := ⟨3, ![200, 2048, 2]⟩
abbrev S100000x1 : Shape := ⟨2, ![100000, 1]⟩
abbrev S2048x1 : Shape := ⟨2, ![2048, 1]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S200x2048, .i32⟩
  | .hbm, ⟨1, _⟩ => ⟨S1x100000, .f32⟩
  | .hbm, ⟨2, _⟩ => ⟨S1, .f32⟩
  | .hbm, ⟨3, _⟩ => ⟨S2048, .i32⟩
  | .hbm, ⟨4, _⟩ => ⟨S1x2048, .i32⟩
  | .hbm, ⟨5, _⟩ => ⟨S200x2048, .i32⟩
  | .hbm, ⟨6, _⟩ => ⟨S_, .f32⟩
  | .hbm, ⟨7, _⟩ => ⟨S2048x100000, .f32⟩
  | .hbm, ⟨8, _⟩ => ⟨S_, .i32⟩
  | .hbm, ⟨9, _⟩ => ⟨S200x2048, .i32⟩
  | .hbm, ⟨10, _⟩ => ⟨S200x2048, .i1⟩
  | .hbm, ⟨11, _⟩ => ⟨S_, .i32⟩
  | .hbm, ⟨12, _⟩ => ⟨S200x2048, .i32⟩
  | .hbm, ⟨13, _⟩ => ⟨S200x2048, .i32⟩
  | .hbm, ⟨14, _⟩ => ⟨S200x2048, .i32⟩
  | .hbm, ⟨15, _⟩ => ⟨S_, .i32⟩
  | .hbm, ⟨16, _⟩ => ⟨S200x2048, .i32⟩
  | .hbm, ⟨17, _⟩ => ⟨S200x2048, .i1⟩
  | .hbm, ⟨18, _⟩ => ⟨S_, .i32⟩
  | .hbm, ⟨19, _⟩ => ⟨S200x2048, .i32⟩
  | .hbm, ⟨20, _⟩ => ⟨S200x2048, .i32⟩
  | .hbm, ⟨21, _⟩ => ⟨S200x2048, .i32⟩
  | .hbm, ⟨22, _⟩ => ⟨S200x2048x1, .i32⟩
  | .hbm, ⟨23, _⟩ => ⟨S200x2048x1, .i32⟩
  | .hbm, ⟨24, _⟩ => ⟨S200x2048x2, .i32⟩
  | .hbm, ⟨25, _⟩ => ⟨S_, .f32⟩
  | .hbm, ⟨26, _⟩ => ⟨S200x2048, .f32⟩
  | .hbm, ⟨27, _⟩ => ⟨S2048x100000, .f32⟩
  | .hbm, ⟨28, _⟩ => ⟨S100000x1, .f32⟩
  | .hbm, ⟨29, _⟩ => ⟨S2048x1, .f32⟩
  | .hbm, ⟨30, _⟩ => ⟨S1x1, .f32⟩
  | .hbm, ⟨31, _⟩ => ⟨S2048x1, .f32⟩
  | .hbm, ⟨32, _⟩ => ⟨S2048x1, .f32⟩
  | .hbm, ⟨33, _⟩ => ⟨S2048, .f32⟩
  | _, _ => ⟨S200x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S200x2048_0_1 : S1x2048.BroadcastsInDim S200x2048 (![0, 1] : Fin 2 → Fin S200x2048.rank)
  bcast_S_S2048x100000 : S_.BroadcastsInDim S2048x100000 (![] : Fin 0 → Fin S2048x100000.rank)
  bcast_S_S200x2048 : S_.BroadcastsInDim S200x2048 (![] : Fin 0 → Fin S200x2048.rank)
  bcast_S200x2048_S200x2048x1_0_1 : S200x2048.BroadcastsInDim S200x2048x1 (![0, 1] : Fin 2 → Fin S200x2048x1.rank)
  concatenates_S200x2048x1_S200x2048x1_S200x2048x2_d2 : Shape.Concatenates [S200x2048x1, S200x2048x1] S200x2048x2 2
  transposes_S1x100000_S100000x1_1_0 : S1x100000.Transposes [1, 0] S100000x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  shapeCasts_S2048x1_S2048 : S2048x1.ShapeCasts S2048
  scatter_S2048x100000_S200x2048x2_S200x2048_n_01_01_2_wf : ScatterDims.WF S2048x100000 S200x2048x2 S200x2048 [] [0, 1] [0, 1] 2
  dot_S2048x100000_S100000x1_S2048x1_1_0_0_1_n_n_wf : DotDims.WF S2048x100000 S100000x1 S2048x1 [1] [0] [0] [1] [] []

variable [Facts₀]

def scatter_S2048x100000_S200x2048x2_S200x2048_n_01_01_2 : ScatterDims S2048x100000 S200x2048x2 S200x2048 where
  updateWindowDims := []
  insertedWindowDims := [0, 1]
  scatterDimsToOperandDims := [0, 1]
  indexVectorDim := 2
  wf := scatter_S2048x100000_S200x2048x2_S200x2048_n_01_01_2_wf
def dot_S2048x100000_S100000x1_S2048x1_1_0_0_1_n_n : DotDims S2048x100000 S100000x1 S2048x1 where
  lhsContracting := [1]
  rhsContracting := [0]
  lhsNonContracting := [0]
  rhsNonContracting := [1]
  lhsBatch := []
  rhsBatch := []
  wf := dot_S2048x100000_S100000x1_S2048x1_1_0_0_1_n_n_wf

class Facts : Prop extends Facts₀ where

variable [Facts]
-- ==== Proof.LibSegmentSum.lean ====
import Mathlib.Data.EReal.Inv
import Mathlib.Algebra.BigOperators.Fin
import Mathlib.Algebra.BigOperators.Group.Finset.Basic
import Mathlib.Algebra.BigOperators.Group.Finset.Piecewise
import Mathlib.Data.Fintype.BigOperators
import Mathlib.Logic.Equiv.Fin.Basic

/-!
# Segment sums and gathers written as one-hot matrix products

A gather `h[src e]` can be computed as the product of a one-hot row `(src e = k)_k` with `h`,
and a scatter-add (segment sum) `∑_{e : dst e = n} m e` as the product of the transposed
one-hot matrix `(n = dst e)_e` with `m`; either product can be accumulated block by block.
The lemmas of this file say that these products are the plain gather and the plain segment sum,
over the extended reals (where `0 * x = 0` for every `x`, infinite ones included) and with
node identifiers read as 32-bit two's complement words.
-/

namespace Cert.LibSegmentSum

open Finset

/-! ## Sums read block by block -/

/-- The position `a * B + b` of the `b`-th entry of the `a`-th block lies below `A * B`. -/
theorem blk_lt {A B : ℕ} (a : Fin A) (b : Fin B) : a.val * B + b.val < A * B := by
  calc a.val * B + b.val < a.val * B + B := Nat.add_lt_add_left b.isLt _
    _ = (a.val + 1) * B := (Nat.succ_mul _ _).symm
    _ ≤ A * B := Nat.mul_le_mul_right _ a.isLt

/-- A sum over `A * B` positions is the sum over the `A` blocks of the sums over the `B`
positions `a * B + b` of each block. -/
theorem sum_blocks {M : Type*} [AddCommMonoid M] (A B : ℕ) (f : Fin (A * B) → M) :
    ∑ a : Fin A, ∑ b : Fin B, f ⟨a.val * B + b.val, blk_lt a b⟩ = ∑ n : Fin (A * B), f n := by
  calc ∑ a : Fin A, ∑ b : Fin B, f ⟨a.val * B + b.val, blk_lt a b⟩
      = ∑ x : Fin A × Fin B, f ⟨x.1.val * B + x.2.val, blk_lt x.1 x.2⟩ :=
        (Fintype.sum_prod_type' (fun a b => f ⟨a.val * B + b.val, blk_lt a b⟩)).symm
    _ = ∑ x : Fin A × Fin B, f (finProdFinEquiv x) := by
        refine Fintype.sum_congr _ _ fun x => congrArg f (Fin.ext ?_)
        show x.1.val * B + x.2.val = x.2.val + B * x.1.val
        rw [Nat.mul_comm, Nat.add_comm]
    _ = ∑ n : Fin (A * B), f n := Equiv.sum_comp finProdFinEquiv f

/-- An accumulator that starts at `0` and adds `g a` at step `a` holds `∑ a < A, g a`
after `A` steps. -/
theorem acc_eq_sum {M : Type*} [AddCommMonoid M] (A : ℕ) (g : ℕ → M) (acc : ℕ → M)
    (h0 : acc 0 = 0) (hs : ∀ a, a < A → acc (a + 1) = acc a + g a) :
    acc A = ∑ a : Fin A, g a.val := by
  induction A with
  | zero => simpa using h0
  | succ A ih =>
    rw [hs A (Nat.lt_succ_self A), ih (fun a ha => hs a (Nat.lt_succ_of_lt ha)),
      Fin.sum_univ_castSucc]
    rfl

/-- The accumulator recursion of a blocked sum: starting at `0` and adding at step `a` the
partial sum `0 + ∑ b, f (a * B + b)` of block `a` gives, after `A` steps, the whole sum. -/
theorem acc_blocks {M : Type*} [AddCommMonoid M] (A B : ℕ) (f : Fin (A * B) → M) (acc : ℕ → M)
    (h0 : acc 0 = 0)
    (hs : ∀ a (ha : a < A), acc (a + 1)
      = acc a + (0 + ∑ b : Fin B, f ⟨a * B + b.val, blk_lt ⟨a, ha⟩ b⟩)) :
    acc A = ∑ n : Fin (A * B), f n := by
  have h := acc_eq_sum A
    (fun a => if ha : a < A then (0 + ∑ b : Fin B, f ⟨a * B + b.val, blk_lt ⟨a, ha⟩ b⟩) else 0)
    acc h0 (fun a ha => by rw [hs a ha, dif_pos ha])
  rw [h, ← sum_blocks]
  refine Fintype.sum_congr _ _ fun a => ?_
  rw [dif_pos a.isLt, zero_add]

/-- `sum_blocks` at `125` blocks of `800`: a sum over `100000` positions. -/
theorem sum_blocks_125_800 {M : Type*} [AddCommMonoid M] (f : Fin 100000 → M) :
    ∑ a : Fin 125, ∑ b : Fin 800, f ⟨a.val * 800 + b.val, blk_lt (A := 125) a b⟩
      = ∑ n : Fin 100000, f n :=
  sum_blocks 125 800 f

/-- `sum_blocks` at `208` blocks of `8192`: a sum over `1703936` positions. -/
theorem sum_blocks_208_8192 {M : Type*} [AddCommMonoid M] (f : Fin 1703936 → M) :
    ∑ a : Fin 208, ∑ b : Fin 8192, f ⟨a.val * 8192 + b.val, blk_lt (A := 208) a b⟩
      = ∑ n : Fin 1703936, f n :=
  sum_blocks 208 8192 f

/-- `acc_blocks` at `125` blocks of `800`. -/
theorem acc_blocks_125_800 {M : Type*} [AddCommMonoid M] (f : Fin 100000 → M) (acc : ℕ → M)
    (h0 : acc 0 = 0)
    (hs : ∀ a (ha : a < 125), acc (a + 1)
      = acc a + (0 + ∑ b : Fin 800, f ⟨a * 800 + b.val, blk_lt (A := 125) ⟨a, ha⟩ b⟩)) :
    acc 125 = ∑ n : Fin 100000, f n :=
  acc_blocks 125 800 f acc h0 hs

/-- `acc_blocks` at `208` blocks of `8192`. -/
theorem acc_blocks_208_8192 {M : Type*} [AddCommMonoid M] (f : Fin 1703936 → M) (acc : ℕ → M)
    (h0 : acc 0 = 0)
    (hs : ∀ a (ha : a < 208), acc (a + 1)
      = acc a + (0 + ∑ b : Fin 8192, f ⟨a * 8192 + b.val, blk_lt (A := 208) ⟨a, ha⟩ b⟩)) :
    acc 208 = ∑ n : Fin 1703936, f n :=
  acc_blocks 208 8192 f acc h0 hs

/-! ## Node identifiers as 32-bit words -/

/-- A natural number below `2^31`, written as a 32-bit word, reads back as itself in two's
complement. -/
theorem toInt_ofNat_small (n : ℕ) (hn : n < 2 ^ 31) : (BitVec.ofNat 32 n).toInt = (n : ℤ) := by
  have hm : n % 2 ^ 32 = n := Nat.mod_eq_of_lt (by omega)
  rw [BitVec.toInt_eq_toNat_cond, BitVec.toNat_ofNat, hm]
  split <;> omega

/-- A word whose two's complement value lies in `[0, N)` has a natural value below `N`. -/
theorem toNat_lt_of_range {s : BitVec 32} {N : ℕ} (hs : 0 ≤ s.toInt ∧ s.toInt < (N : ℤ)) :
    s.toInt.toNat < N := by
  obtain ⟨h0, h1⟩ := hs
  omega

/-- For `n < 2^31`, a word equals the word of `n` exactly when its two's complement value
is `n`. -/
theorem eq_ofNat_iff (s : BitVec 32) (n : ℕ) (hn : n < 2 ^ 31) :
    s = BitVec.ofNat 32 n ↔ s.toInt = (n : ℤ) := by
  rw [← BitVec.toInt_inj, toInt_ofNat_small n hn]

/-- The same with the two sides of the equation exchanged. -/
theorem ofNat_eq_iff (s : BitVec 32) (n : ℕ) (hn : n < 2 ^ 31) :
    BitVec.ofNat 32 n = s ↔ s.toInt = (n : ℤ) := by
  rw [eq_comm]; exact eq_ofNat_iff s n hn

/-! ## One-hot selection -/

/-- The product of the one-hot row of an in-range identifier `s` with a column `h` is the
entry `h s`: a gather. -/
theorem onehot_select (N : ℕ) (hN : N ≤ 2 ^ 31) (s : BitVec 32) (h : Fin N → EReal)
    (hs : 0 ≤ s.toInt ∧ s.toInt < (N : ℤ)) :
    ∑ n : Fin N, (if s = BitVec.ofNat 32 n.val then (1 : EReal) else 0) * h n
      = h ⟨s.toInt.toNat, toNat_lt_of_range hs⟩ := by
  have key : ∀ n : Fin N, s = BitVec.ofNat 32 n.val ↔ n = ⟨s.toInt.toNat, toNat_lt_of_range hs⟩ := by
    intro n
    have hn := n.isLt
    rw [eq_ofNat_iff s n.val (by omega), Fin.ext_iff]
    show s.toInt = (n.val : ℤ) ↔ n.val = s.toInt.toNat
    obtain ⟨h0, h1⟩ := hs
    omega
  simp only [key, ite_mul, one_mul, zero_mul]
  rw [Finset.sum_ite_eq']
  exact if_pos (mem_univ _)

/-- The one-hot row of an identifier that is negative or not below `N` is zero, and so is its
product with any column. -/
theorem onehot_select_out (N : ℕ) (hN : N ≤ 2 ^ 31) (s : BitVec 32) (h : Fin N → EReal)
    (hs : s.toInt < 0 ∨ (N : ℤ) ≤ s.toInt) :
    ∑ n : Fin N, (if s = BitVec.ofNat 32 n.val then (1 : EReal) else 0) * h n = 0 := by
  refine Finset.sum_eq_zero fun n _ => ?_
  have hn := n.isLt
  have hne : ¬ s = BitVec.ofNat 32 n.val := by
    rw [eq_ofNat_iff s n.val (by omega)]
    omega
  rw [if_neg hne, zero_mul]

/-! ## A message-passing layer with zero padding -/

/-- Gather, weight and scatter-add as two one-hot products over a zero-padded edge list:
for `E` edges `(src e, dst e)` with weights `nrm e`, every `src e` in `[0, N)`, extended by
`P` padding edges of weight `0` (whatever their end points), the product of the transposed
one-hot matrix of the destinations with the weighted gathered rows is the segment sum
`∑_{e : dst e = n} nrm e * h (src e)`.  Nothing is asked of `dst`: a destination that is
negative or not below `N` matches no `n` on either side. -/
theorem layer_padded (N E P : ℕ) (hN : N ≤ 2 ^ 31)
    (src dst : Fin E → BitVec 32) (nrm : Fin E → EReal) (h : Fin N → EReal)
    (hsrc : ∀ e, 0 ≤ (src e).toInt ∧ (src e).toInt < (N : ℤ))
    (srcP dstP : Fin (E + P) → BitVec 32) (nrmP : Fin (E + P) → EReal)
    (hsrcP : ∀ (e : Fin (E + P)) (he : e.val < E), srcP e = src ⟨e.val, he⟩)
    (hdstP : ∀ (e : Fin (E + P)) (he : e.val < E), dstP e = dst ⟨e.val, he⟩)
    (hnrmP : ∀ (e : Fin (E + P)) (he : e.val < E), nrmP e = nrm ⟨e.val, he⟩)
    (hnrm0 : ∀ e : Fin (E + P), E ≤ e.val → nrmP e = 0)
    (n : Fin N) :
    ∑ e : Fin (E + P), (if BitVec.ofNat 32 n.val = dstP e then (1 : EReal) else 0)
        * ((∑ k : Fin N, (if srcP e = BitVec.ofNat 32 k.val then (1 : EReal) else 0) * h k)
            * nrmP e)
      = ∑ e ∈ Finset.univ.filter (fun e : Fin E => (dst e).toInt = (n.val : ℤ)),
          nrm e * h ⟨(src e).toInt.toNat, toNat_lt_of_range (hsrc e)⟩ := by
  have hn : n.val < 2 ^ 31 := lt_of_lt_of_le n.isLt hN
  rw [Fin.sum_univ_add]
  -- the padding edges carry weight zero
  have hpad : ∑ i : Fin P, (if BitVec.ofNat 32 n.val = dstP (Fin.natAdd E i) then (1 : EReal) else 0)
        * ((∑ k : Fin N, (if srcP (Fin.natAdd E i) = BitVec.ofNat 32 k.val then (1 : EReal) else 0)
              * h k) * nrmP (Fin.natAdd E i)) = 0 :=
    Finset.sum_eq_zero fun i _ => by
      rw [hnrm0 (Fin.natAdd E i) (Nat.le_add_right E i.val), mul_zero, mul_zero]
  rw [hpad, add_zero, Finset.sum_filter]
  refine Fintype.sum_congr _ _ fun e => ?_
  have he : (Fin.castAdd P e).val < E := e.isLt
  rw [hsrcP _ he, hdstP _ he, hnrmP _ he]
  show (if BitVec.ofNat 32 n.val = dst e then (1 : EReal) else 0)
      * ((∑ k : Fin N, (if src e = BitVec.ofNat 32 k.val then (1 : EReal) else 0) * h k) * nrm e)
    = if (dst e).toInt = (n.val : ℤ) then
        nrm e * h ⟨(src e).toInt.toNat, toNat_lt_of_range (hsrc e)⟩ else 0
  rw [onehot_select N hN (src e) h (hsrc e)]
  by_cases hd : (dst e).toInt = (n.val : ℤ)
  · rw [if_pos hd, if_pos ((ofNat_eq_iff (dst e) n.val hn).2 hd), one_mul, mul_comm]
  · rw [if_neg hd, if_neg (fun h' => hd ((ofNat_eq_iff (dst e) n.val hn).1 h')), zero_mul]

/-- `layer_padded` at `100000` nodes and `1700000` edges padded to `1703936`. -/
theorem layer_padded_100000
    (src dst : Fin 1700000 → BitVec 32) (nrm : Fin 1700000 → EReal) (h : Fin 100000 → EReal)
    (hsrc : ∀ e, 0 ≤ (src e).toInt ∧ (src e).toInt < ((100000 : ℕ) : ℤ))
    (srcP dstP : Fin 1703936 → BitVec 32) (nrmP : Fin 1703936 → EReal)
    (hsrcP : ∀ (e : Fin 1703936) (he : e.val < 1700000), srcP e = src ⟨e.val, he⟩)
    (hdstP : ∀ (e : Fin 1703936) (he : e.val < 1700000), dstP e = dst ⟨e.val, he⟩)
    (hnrmP : ∀ (e : Fin 1703936) (he : e.val < 1700000), nrmP e = nrm ⟨e.val, he⟩)
    (hnrm0 : ∀ e : Fin 1703936, 1700000 ≤ e.val → nrmP e = 0)
    (n : Fin 100000) :
    ∑ e : Fin 1703936, (if BitVec.ofNat 32 n.val = dstP e then (1 : EReal) else 0)
        * ((∑ k : Fin 100000, (if srcP e = BitVec.ofNat 32 k.val then (1 : EReal) else 0) * h k)
            * nrmP e)
      = ∑ e ∈ Finset.univ.filter (fun e : Fin 1700000 => (dst e).toInt = (n.val : ℤ)),
          nrm e * h ⟨(src e).toInt.toNat, toNat_lt_of_range (hsrc e)⟩ :=
  layer_padded 100000 1700000 3936 (by norm_num) src dst nrm h hsrc srcP dstP nrmP
    hsrcP hdstP hnrmP hnrm0 n

end Cert.LibSegmentSum
-- ==== Proof.Spec.lean ====
/-
  THE BAG-OF-WORDS LINEAR LAYER, as one function of the argument arrays. `text` holds 200 token identifiers for each of
  2048 batch columns, `w` one weight per vocabulary entry (100000 of them), `bias` one number. The layer's output at
  batch column `b` is the sum over the vocabulary of the weight times the number of the column's tokens that equal that
  entry, plus the bias. A token identifier is a 32-bit word read in two's complement; an identifier outside
  `[0, 100000)` equals no vocabulary entry and adds nothing.

  The second half is the arithmetic that turns a blocked evaluation of that sum into the sum itself: a count taken
  eight rows at a time, a weighted sum taken 128 vocabulary entries at a time over a vocabulary padded with 96 zero
  weights, and a running total that starts at zero.
-/
import Idealize.ShloMosaic.PureOps.Ideal
import Idealize.ShloMosaic.Lib.ValueIdx
import proofs.«420262_j8151847928094_4_alg».proof.Proof.LibSegmentSum

noncomputable section

open Idealize.ShloMosaic Idealize.ShloMosaic.ValueIdx
open scoped BigOperators

namespace Cert.BagOfWords

/-- How many of a column's 200 tokens, read as signed words, equal the vocabulary entry `n`; an extended real. -/
def count (col : Fin 200 → BitVec 32) (n : ℕ) : EReal :=
  ∑ s : Fin 200, if (col s).toInt = (n : ℤ) then (1 : EReal) else 0

/-- Batch column `b` of the token array. -/
def column (text : IVec (⟨2, ![200, 2048]⟩ : Shape) 32) (b : Fin 2048) : Fin 200 → BitVec 32 :=
  fun s => text (ix2 s b)

/-- The weighted count of one batch column: the sum over the vocabulary of weight times count. -/
def weighted (w : (⟨2, ![1, 100000]⟩ : Shape).Idx → EReal) (col : Fin 200 → BitVec 32) : EReal :=
  ∑ n : Fin 100000, w (ix2 (0 : Fin 1) n) * count col n.val

/-- The layer: at batch column `b`, the weighted count of that column plus the bias. -/
def bow (text : IVec (⟨2, ![200, 2048]⟩ : Shape) 32) (w : (⟨2, ![1, 100000]⟩ : Shape).Idx → EReal)
    (bias : (⟨1, ![1]⟩ : Shape).Idx → EReal) : (⟨1, ![2048]⟩ : Shape).Idx → EReal :=
  fun i => weighted w (column text ⟨(i 0).val, (i 0).isLt⟩) + bias (ix1 (0 : Fin 1))

theorem bow_apply (text : IVec (⟨2, ![200, 2048]⟩ : Shape) 32) (w : (⟨2, ![1, 100000]⟩ : Shape).Idx → EReal)
    (bias : (⟨1, ![1]⟩ : Shape).Idx → EReal) (b : Fin 2048) :
    bow text w bias (ix1 b) = weighted w (column text b) + bias (ix1 (0 : Fin 1)) := rfl

/-! ## A count taken eight rows at a time -/

/-- Row `8 * k + g` of a column of 200, for a chunk `k < 25` and a row `g < 8` of the chunk. -/
def chunkRow (k : Fin 25) (g : Fin 8) : Fin 200 := ⟨k.val * 8 + g.val, LibSegmentSum.blk_lt k g⟩

/-- The matches of chunk `k` with the word of `n`: over its eight rows, one for each row holding that word. -/
def chunkCount (col : Fin 200 → BitVec 32) (n : ℕ) (k : Fin 25) : EReal :=
  ∑ g : Fin 8, if col (chunkRow k g) = BitVec.ofNat 32 n then (1 : EReal) else 0

/-- The 25 chunk counts against the word of an entry `n < 2^31` add up to the count. -/
theorem sum_chunkCount (col : Fin 200 → BitVec 32) (n : ℕ) (hn : n < 2 ^ 31) :
    ∑ k : Fin 25, chunkCount col n k = count col n := by
  have h := LibSegmentSum.sum_blocks 25 8
    (fun s : Fin 200 => if (col s).toInt = (n : ℤ) then (1 : EReal) else 0)
  refine Eq.trans ?_ h
  refine Fintype.sum_congr _ _ fun k => ?_
  refine Fintype.sum_congr _ _ fun g => ?_
  show (if col (chunkRow k g) = BitVec.ofNat 32 n then (1 : EReal) else 0)
    = if (col (chunkRow k g)).toInt = (n : ℤ) then (1 : EReal) else 0
  simp only [LibSegmentSum.eq_ofNat_iff _ n hn]

/-- A sum over 25 chunks written out from the left, starting at zero: the order in which the unrolled body adds. -/
theorem nest25 (F : Fin 25 → EReal) :
    0 + F 0 + F 1 + F 2 + F 3 + F 4 + F 5 + F 6 + F 7 + F 8 + F 9 + F 10 + F 11 + F 12 + F 13 + F 14 + F 15 + F 16
      + F 17 + F 18 + F 19 + F 20 + F 21 + F 22 + F 23 + F 24 = ∑ k : Fin 25, F k := by
  simp only [Fin.sum_univ_castSucc, Fin.sum_univ_zero]
  rfl

/-! ## A weighted sum taken 128 entries at a time over the padded vocabulary -/

/-- The weights padded with 96 zeros to 782 blocks of 128. -/
def padded (w : (⟨2, ![1, 100000]⟩ : Shape).Idx → EReal) (p : Fin 100096) : EReal :=
  if h : p.val < 100000 then w (ix2 (0 : Fin 1) ⟨p.val, h⟩) else 0

/-- Block `j` of the padded weighted count: over its 128 entries, weight times count. -/
def blockSum (w : (⟨2, ![1, 100000]⟩ : Shape).Idx → EReal) (col : Fin 200 → BitVec 32) (j : ℕ) : EReal :=
  ∑ v : Fin 128, (if h : j * 128 + v.val < 100096 then padded w ⟨j * 128 + v.val, h⟩ else 0) * count col (j * 128 + v.val)

/-- The padded weighted count over all 100096 entries is the weighted count: the first 100000 weights are the
weights themselves, and the last 96 are zero, and zero times any extended real is zero. -/
theorem sum_padded (w : (⟨2, ![1, 100000]⟩ : Shape).Idx → EReal) (col : Fin 200 → BitVec 32) :
    ∑ p : Fin 100096, padded w p * count col p.val = weighted w col := by
  have h := Fin.sum_univ_add (M := EReal) (a := 100000) (b := 96)
    (fun p : Fin 100096 => padded w p * count col p.val)
  refine h.trans ?_
  have htail : ∑ i : Fin 96, (fun p : Fin 100096 => padded w p * count col p.val) (Fin.natAdd 100000 i) = 0 :=
    Finset.sum_eq_zero fun i _ => by
      show padded w (Fin.natAdd 100000 i) * count col (Fin.natAdd 100000 i).val = 0
      have hge : ¬ (Fin.natAdd 100000 i).val < 100000 := by
        show ¬ (100000 + i.val < 100000)
        omega
      unfold padded
      rw [dif_neg hge, zero_mul]
  rw [htail, add_zero]
  refine Fintype.sum_congr _ _ fun n => ?_
  show padded w (Fin.castAdd 96 n) * count col (Fin.castAdd 96 n).val = w (ix2 (0 : Fin 1) n) * count col n.val
  have hlt : (Fin.castAdd 96 n).val < 100000 := n.isLt
  unfold padded
  rw [dif_pos hlt]
  rfl

/-- Block `j < 782` of the padded weighted count, with the range test of its entries discharged. -/
theorem blockSum_fin (w : (⟨2, ![1, 100000]⟩ : Shape).Idx → EReal) (col : Fin 200 → BitVec 32) (j : Fin 782) :
    blockSum w col j.val
      = ∑ v : Fin 128, (fun p : Fin 100096 => padded w p * count col p.val)
          ⟨j.val * 128 + v.val, LibSegmentSum.blk_lt (A := 782) j v⟩ := by
  unfold blockSum
  refine Fintype.sum_congr _ _ fun v => ?_
  have hlt : j.val * 128 + v.val < 100096 := LibSegmentSum.blk_lt (A := 782) j v
  rw [dif_pos hlt]

/-- The 782 block sums add up to the weighted count: the zero weights of the padding erase the last 96 entries. -/
theorem sum_blockSum (w : (⟨2, ![1, 100000]⟩ : Shape).Idx → EReal) (col : Fin 200 → BitVec 32) :
    ∑ j ∈ Finset.range 782, blockSum w col j = weighted w col := by
  rw [Finset.sum_range]
  refine Eq.trans ?_ (sum_padded w col)
  refine Eq.trans ?_ (LibSegmentSum.sum_blocks 782 128 (fun p : Fin 100096 => padded w p * count col p.val))
  exact Fintype.sum_congr _ _ fun j => blockSum_fin w col j

end Cert.BagOfWords

end
-- ==== Proof.KernelBlocks.lean ====
/-
  THE INPUT BLOCKS OF A GRID POINT, read at an index. The grid is 2 batch tiles by 782 vocabulary tiles, walked with
  the vocabulary tile fastest: point `t` is batch tile `t / 782` and vocabulary tile `t % 782`. Its token block is the
  200 rows of the 1024 batch columns `1024 (t / 782) + q`; its weight block is the 128 entries `128 (t % 782) + v` of
  the weights padded with 96 zeros — the program pads the weight row before the kernel runs.
-/
import proofs.«420262_j8151847928094_4_alg».proof.Proof.Gen.KernelIdeal.Frame
import proofs.«420262_j8151847928094_4_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The vocabulary tile of point `t`. -/
theorem coords_tile (t : Fin cfg0.N) : ((grid0.coords t) 1).val = t.val % 782 :=
  (by decide +kernel : ∀ t : Fin grid0.N, ((grid0.coords t) 1).val = t.val % 782) t

/-- The batch tile of point `t`. -/
theorem coords_batch (t : Fin cfg0.N) : ((grid0.coords t) 0).val = t.val / 782 :=
  (by decide +kernel : ∀ t : Fin grid0.N, ((grid0.coords t) 0).val = t.val / 782) t

/-- The grid's point count, as a bound on a point's number. -/
theorem point_lt (t : Fin cfg0.N) : t.val < 1564 := by
  have h : cfg0.N = 1564 := N_0
  have := t.isLt
  omega

/-- A batch column of a point's token block is a batch column of the array. -/
theorem col_lt (t : Fin cfg0.N) (q : Fin 1024) : t.val / 782 * 1024 + q.val < 2048 := by
  have := point_lt t
  have := q.isLt
  omega

/-- An entry of a point's weight block is an entry of the padded vocabulary. -/
theorem ent_lt (t : Fin cfg0.N) (v : Fin 128) : t.val % 782 * 128 + v.val < 100096 := by
  have := v.isLt
  have := Nat.mod_lt t.val (by decide : 0 < 782)
  omega

/-- The token block of point `t`, at its literal type. -/
abbrev tblk (c : Dev nD) (t : Fin cfg0.N) : Vec Ideal S200x1024 .i32 := iblk m c 0 t

/-- The weight block of point `t`, at its literal type. -/
abbrev wblk (c : Dev nD) (t : Fin cfg0.N) : Vec Ideal S1x128 .f32 := iblk m c 1 t

/-- The token array as the program was given it. -/
abbrev tokens (c : Dev nD) : IVec (⟨2, ![200, 2048]⟩ : Shape) 32 := m ((c : Thread nD τ).loc main_arg0)

/-- The weight row as the program was given it. -/
abbrev weights (c : Dev nD) : (⟨2, ![1, 100000]⟩ : Shape).Idx → EReal := m ((c : Thread nD τ).loc main_arg1)

/-- The windows' index maps over the grid: the token window's block is batch tile `t / 782` of all the rows, the
    weight window's block is vocabulary tile `t % 782` of the one row. -/
theorem idx_facts : ∀ t : Fin cfg0.N, win0_0.index t (0 : Fin 2) = 0 ∧ win0_0.index t (1 : Fin 2) = t.val / 782
    ∧ win0_1.index t (0 : Fin 2) = 0 ∧ win0_1.index t (1 : Fin 2) = t.val % 782 :=
  (by decide +kernel : ∀ t : Fin grid0.N, _)

/-- Where the token window's block at point `t` puts its entry `(s, q)` in the array. -/
theorem temb (t : Fin cfg0.N) (s : Fin 200) (q : Fin 1024) :
    ((cfg0.win 0).blk t).view.emb (ix2 s q) = ix2 s ⟨t.val / 782 * 1024 + q.val, col_lt t q⟩ := by
  obtain ⟨e0, e1, -, -⟩ := idx_facts t
  funext a; apply Fin.ext
  match a with
  | ⟨0, _⟩ => show win0_0.index t (0 : Fin 2) * 200 + 1 * s.val = s.val; omega
  | ⟨1, _⟩ => show win0_0.index t (1 : Fin 2) * 1024 + 1 * q.val = t.val / 782 * 1024 + q.val; omega

/-- Row `s`, column `q` of point `t`'s token block is row `s`, column `1024 (t / 782) + q` of the token array. -/
theorem tblk_apply (c : Dev nD) (t : Fin cfg0.N) (s : Fin 200) (q : Fin 1024) :
    tblk m c t (ix2 s q) = tokens m c (ix2 s ⟨t.val / 782 * 1024 + q.val, col_lt t q⟩) := by
  show V m c main_arg0 (((cfg0.win 0).blk t).view.emb (ix2 s q)) = _
  rw [temb t s q, V_main_arg0 m c]

/-- The padded weight row as the region finds it: the weight row flattened, padded with 96 copies of the padding
    value, and laid out as one row. -/
theorem V_main_v2 (c : Dev nD) :
    (V m c main_v2 : S1x100096.Idx → EReal) =
      broadcastInDim S1x100096 ![1] bcast_S100096_S1x100096_1
        (pad S100096 ![0] ![96] ![0]
          (shapeCast S100000 (m ((c : Thread nD τ).loc main_arg1) : S1x100000.Idx → EReal) shapeCasts_S1x100000_S100000)
          (sitofp (F := Ideal) .f32 (constantI S_ 32 0#32)) pads_S100000_S100096_0960 h_S_) := by
  dsimp only [Gen.V, Gen.V0]
  simp only [Gen.hostOps0, Gen.hostOps0_1, Gen.hostOps0_2, List.flatten_cons, List.flatten_nil, List.append_nil,
    List.cons_append, List.nil_append]
  after_results
  rfl

/-- The padding value, the integer constant 0 converted to a float, is the extended real 0. -/
theorem padval_eq :
    (sitofp (F := Ideal) .f32 (constantI S_ 32 0#32) : S_.Idx → EReal) (Shape.Idx.first h_S_) = 0 := by
  show (((0#32 : BitVec 32).toInt : ℝ) : EReal) = 0
  rw [BitVec.toInt_zero, Int.cast_zero, EReal.coe_zero]

/-- The flattened weight row read at an entry below 100000 is the weight row's entry. -/
theorem flat_apply (x : S1x100000.Idx → EReal) (p : ℕ) (hp : p < 100000) :
    shapeCast S100000 x shapeCasts_S1x100000_S100000 (ix1 (⟨p, hp⟩ : Fin 100000)) = x (ix2 (0 : Fin 1) ⟨p, hp⟩) := by
  refine shapeCast_apply x shapeCasts_S1x100000_S100000 (ix1 (⟨p, hp⟩ : Fin 100000)) (ix2 (0 : Fin 1) ⟨p, hp⟩) ?_
  rw [Shape.rowMajor_val_two, Shape.rowMajor_val_one]
  show 0 * 100000 + p = p
  omega

/-- The weight row flattened and padded with 96 copies of a value `z`, read at entry `p`: the weight row's entry
    below 100000, `z` from there on. -/
theorem padflat_apply (x : S1x100000.Idx → EReal) (z : S_.Idx → EReal) (p : Fin 100096) :
    pad S100096 ![0] ![96] ![0] (shapeCast S100000 x shapeCasts_S1x100000_S100000) z pads_S100000_S100096_0960 h_S_ (ix1 p)
      = if h : p.val < 100000 then x (ix2 (0 : Fin 1) ⟨p.val, h⟩) else z (Shape.Idx.first h_S_) := by
  by_cases hp : p.val < 100000
  · rw [dif_pos hp]
    refine (pad_apply_of_inside (s := S100000) ![0] ![96] ![0] (shapeCast S100000 x shapeCasts_S1x100000_S100000) z
      pads_S100000_S100096_0960 h_S_ (ix1 p) (ix1 (⟨p.val, hp⟩ : Fin 100000)) ?_).trans
      (flat_apply x p.val hp)
    intro a
    match a with
    | ⟨0, _⟩ => show p.val = 0 + p.val * (0 + 1); omega
  · rw [dif_neg hp]
    refine pad_apply_of_not_inside (s := S100000) ![0] ![96] ![0] (shapeCast S100000 x shapeCasts_S1x100000_S100000) z
      pads_S100000_S100096_0960 h_S_ (ix1 p) (0 : Fin 1) ?_
    rintro ⟨-, -, h3⟩
    change (p.val - 0) / (0 + 1) < 100000 at h3
    omega

/-- The padded weight row as the region finds it, read at entry `p` of its one row: the weights padded with zeros. -/
theorem V_main_v2_apply (c : Dev nD) (p : Fin 100096) :
    (V m c main_v2 : S1x100096.Idx → EReal) (ix2 (0 : Fin 1) p) = Cert.BagOfWords.padded (weights m c) p := by
  rw [V_main_v2 m c]
  refine (broadcastInDim_apply ![1] bcast_S100096_S1x100096_1 _ (ix2 (0 : Fin 1) p) (ix1 p) ?_).trans ?_
  · intro a
    match a with
    | ⟨0, _⟩ =>
      show p.val = if (100096 : ℕ) = 1 then 0 else p.val
      rw [if_neg (by decide)]
  · rw [padflat_apply, padval_eq]
    rfl

/-- Where the weight window's block at point `t` puts its entry `v` in the padded row. -/
theorem wemb (t : Fin cfg0.N) (v : Fin 128) :
    ((cfg0.win 1).blk t).view.emb (ix2 (0 : Fin 1) v) = ix2 (0 : Fin 1) ⟨t.val % 782 * 128 + v.val, ent_lt t v⟩ := by
  obtain ⟨-, -, e0, e1⟩ := idx_facts t
  funext a; apply Fin.ext
  match a with
  | ⟨0, _⟩ => show win0_1.index t (0 : Fin 2) * 1 + 1 * 0 = 0; omega
  | ⟨1, _⟩ => show win0_1.index t (1 : Fin 2) * 128 + 1 * v.val = t.val % 782 * 128 + v.val; omega

/-- Entry `v` of point `t`'s weight block is entry `128 (t % 782) + v` of the padded weights. -/
theorem wblk_apply (c : Dev nD) (t : Fin cfg0.N) (v : Fin 128) :
    wblk m c t (ix2 (0 : Fin 1) v) = Cert.BagOfWords.padded (weights m c) ⟨t.val % 782 * 128 + v.val, ent_lt t v⟩ := by
  show (V m c main_v2 : S1x100096.Idx → EReal) (((cfg0.win 1).blk t).view.emb (ix2 (0 : Fin 1) v)) = _
  rw [wemb t v]
  exact V_main_v2_apply m c _

end Cert.KernelIdeal.Blocks

end
-- ==== Proof.KernelBody.lean ====
/-
  ONE GRID POINT OF THE HISTOGRAM KERNEL, as a pure function. At vocabulary tile `j` (the point's second coordinate)
  the body compares the 200 tokens of each of its 1024 batch columns, eight rows at a time, with the 128 vocabulary
  entries `128 j + v`, adds the matches up into a 128 × 1024 table of counts, contracts the table with the tile's 128
  weights, and adds the result to the running total it keeps in a scratch row. Read at batch column `q`, the new
  total is the old total plus the sum over the tile's entries of weight times the column's count of that entry.
-/
import proofs.«420262_j8151847928094_4_alg».proof.Proof.Gen.KernelIdeal.Skeleton
import proofs.«420262_j8151847928094_4_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.KernelIdeal.Body

open Cert.KernelIdeal Cert.KernelIdeal.Gen Idealize.ShloMosaic Idealize.ShloMosaic.ValueIdx
open scoped BigOperators

variable {F : FTy → Type} [FloatOps F]

/-- The new running total from the 25 eight-row chunks of the token block, the weight tile and the old total:
    the body's arithmetic, in the order the body performs it. -/
def accOf (i : grid0.Coords) (L0 L1 L2 L3 L4 L5 L6 L7 L8 L9 L10 L11 L12 L13 L14 L15 L16 L17 L18 L19 L20 L21 L22 L23 L24 : Vec F S8x1024 .i32)
    (W : Vec F S1x128 .f32) (ACC : Vec F S1x1024 .f32) : FVec F S1x1024 .f32 :=
  k0_pay1 (k0_pay3 i)
    (k0_pay12 (k0_pay3 i)
      (k0_pay10 (k0_pay3 i)
        (k0_pay8 (k0_pay3 i)
          (k0_pay6 (k0_pay3 i) (k0_pay4 i L0 L1 L2) (k0_pay5 i L3) L4 L5 L6 L7)
          (k0_pay7 (k0_pay3 i) L8) L9 L10 L11 L12)
        (k0_pay9 (k0_pay3 i) L13) L14 L15 L16 L17)
      (k0_pay11 (k0_pay3 i) L18) L19 L20 L21 L22)
    (k0_pay13 (k0_pay3 i) L23) L24 W ACC

/-- The same from the whole 200 × 1024 token block: chunk `k` is its rows `8k … 8k + 7`. -/
def accStep (i : grid0.Coords) (x0 : Vec F S200x1024 .i32) (x1 : Vec F S1x128 .f32) (xs0 : Vec F S1x1024 .f32) :
    FVec F S1x1024 .f32 :=
  accOf i
    (View.ld x0 (Rect.unit (s := S200x1024) ![0, 0] S8x1024.size inb_S200x1024_S8x1024_0_0))
    (View.ld x0 (Rect.unit (s := S200x1024) ![8, 0] S8x1024.size inb_S200x1024_S8x1024_8_0))
    (View.ld x0 (Rect.unit (s := S200x1024) ![16, 0] S8x1024.size inb_S200x1024_S8x1024_16_0))
    (View.ld x0 (Rect.unit (s := S200x1024) ![24, 0] S8x1024.size inb_S200x1024_S8x1024_24_0))
    (View.ld x0 (Rect.unit (s := S200x1024) ![32, 0] S8x1024.size inb_S200x1024_S8x1024_32_0))
    (View.ld x0 (Rect.unit (s := S200x1024) ![40, 0] S8x1024.size inb_S200x1024_S8x1024_40_0))
    (View.ld x0 (Rect.unit (s := S200x1024) ![48, 0] S8x1024.size inb_S200x1024_S8x1024_48_0))
    (View.ld x0 (Rect.unit (s := S200x1024) ![56, 0] S8x1024.size inb_S200x1024_S8x1024_56_0))
    (View.ld x0 (Rect.unit (s := S200x1024) ![64, 0] S8x1024.size inb_S200x1024_S8x1024_64_0))
    (View.ld x0 (Rect.unit (s := S200x1024) ![72, 0] S8x1024.size inb_S200x1024_S8x1024_72_0))
    (View.ld x0 (Rect.unit (s := S200x1024) ![80, 0] S8x1024.size inb_S200x1024_S8x1024_80_0))
    (View.ld x0 (Rect.unit (s := S200x1024) ![88, 0] S8x1024.size inb_S200x1024_S8x1024_88_0))
    (View.ld x0 (Rect.unit (s := S200x1024) ![96, 0] S8x1024.size inb_S200x1024_S8x1024_96_0))
    (View.ld x0 (Rect.unit (s := S200x1024) ![104, 0] S8x1024.size inb_S200x1024_S8x1024_104_0))
    (View.ld x0 (Rect.unit (s := S200x1024) ![112, 0] S8x1024.size inb_S200x1024_S8x1024_112_0))
    (View.ld x0 (Rect.unit (s := S200x1024) ![120, 0] S8x1024.size inb_S200x1024_S8x1024_120_0))
    (View.ld x0 (Rect.unit (s := S200x1024) ![128, 0] S8x1024.size inb_S200x1024_S8x1024_128_0))
    (View.ld x0 (Rect.unit (s := S200x1024) ![136, 0] S8x1024.size inb_S200x1024_S8x1024_136_0))
    (View.ld x0 (Rect.unit (s := S200x1024) ![144, 0] S8x1024.size inb_S200x1024_S8x1024_144_0))
    (View.ld x0 (Rect.unit (s := S200x1024) ![152, 0] S8x1024.size inb_S200x1024_S8x1024_152_0))
    (View.ld x0 (Rect.unit (s := S200x1024) ![160, 0] S8x1024.size inb_S200x1024_S8x1024_160_0))
    (View.ld x0 (Rect.unit (s := S200x1024) ![168, 0] S8x1024.size inb_S200x1024_S8x1024_168_0))
    (View.ld x0 (Rect.unit (s := S200x1024) ![176, 0] S8x1024.size inb_S200x1024_S8x1024_176_0))
    (View.ld x0 (Rect.unit (s := S200x1024) ![184, 0] S8x1024.size inb_S200x1024_S8x1024_184_0))
    (View.ld x0 (Rect.unit (s := S200x1024) ![192, 0] S8x1024.size inb_S200x1024_S8x1024_192_0))
    x1 xs0

/-- The matches of one chunk with the word of vocabulary entry `n`, in batch column `q`. -/
def chunkMatches (L : Vec Ideal S8x1024 .i32) (n : ℕ) (q : Fin 1024) : EReal :=
  ∑ g : Fin 8, if L (ix2 g q) = BitVec.ofNat 32 n then (1 : EReal) else 0

/-! ## One chunk's compare, read at an index -/

/-- A one-bit word that is one, widened to 32 bits and converted as a signed integer, is the extended real one. -/
theorem sitofp_bit_one : (FloatOps.sitofp .f32 ((1#1 : BitVec 1).setWidth 32) : Ideal .f32) = (1 : EReal) := by
  show (((((1#1 : BitVec 1).setWidth 32).toInt : ℤ) : ℝ) : EReal) = 1
  have h : ((1#1 : BitVec 1).setWidth 32).toInt = 1 := by decide
  rw [h]; norm_num

/-- A one-bit word that is zero, widened and converted, is zero. -/
theorem sitofp_bit_zero : (FloatOps.sitofp .f32 ((0#1 : BitVec 1).setWidth 32) : Ideal .f32) = (0 : EReal) := by
  show (((((0#1 : BitVec 1).setWidth 32).toInt : ℤ) : ℝ) : EReal) = 0
  have h : ((0#1 : BitVec 1).setWidth 32).toInt = 0 := by decide
  rw [h]; norm_num

/-- The token rows broadcast along the entry axis, read at (row `g`, entry `v`, column `q`): the token at (g, q). -/
theorem tokens_bcast_apply (L : Vec Ideal S8x1024 .i32) (g : Fin 8) (v : Fin 128) (q : Fin 1024) :
    broadcastTo S8x128x1024 (shapeCast S8x1x1024 L shapeCasts_S8x1024_S8x1x1024) broadcasts_S8x1x1024_S8x128x1024
        (ix3 g v q) = L (ix2 g q) := by
  refine (broadcastTo_apply _ _ (ix3 g v q) (ix3 g (0 : Fin 1) q) (fun a => match a with
    | ⟨0, _⟩ => rfl
    | ⟨1, _⟩ => rfl
    | ⟨2, _⟩ => rfl)).trans ?_
  refine shapeCast_apply _ _ (ix3 g (0 : Fin 1) q) (ix2 g q) ?_
  rw [Shape.rowMajor_val_two, Shape.rowMajor_val_three]
  show g.val * 1024 + q.val = (g.val * 1 + 0) * 1024 + q.val
  omega

/-- The entry words broadcast along rows and columns, read at (g, v, q): the word of entry `v`. -/
theorem entries_bcast_apply (v6 : IVec S1x128x1 32) (g : Fin 8) (v : Fin 128) (q : Fin 1024) :
    broadcastTo S8x128x1024 v6 broadcasts_S1x128x1_S8x128x1024 (ix3 g v q) = v6 (ix3 (0 : Fin 1) v (0 : Fin 1)) :=
  broadcastTo_apply _ _ (ix3 g v q) (ix3 (0 : Fin 1) v (0 : Fin 1)) (fun a => match a with
    | ⟨0, _⟩ => rfl
    | ⟨1, _⟩ => rfl
    | ⟨2, _⟩ => rfl)

/-- One chunk's compare, widened and converted, at (g, v, q): one if the token at (g, q) is the word of entry `v`,
    zero otherwise. -/
theorem chunk_elem (L : Vec Ideal S8x1024 .i32) (v6 : IVec S1x128x1 32) (g : Fin 8) (v : Fin 128) (q : Fin 1024) :
    (sitofp .f32 (extui 32 (cmpi .eq
        (broadcastTo S8x128x1024 (shapeCast S8x1x1024 L shapeCasts_S8x1024_S8x1x1024) broadcasts_S8x1x1024_S8x128x1024)
        (broadcastTo S8x128x1024 v6 broadcasts_S1x128x1_S8x128x1024)) natLt_1_32) : FVec Ideal S8x128x1024 .f32)
        (ix3 g v q)
      = if L (ix2 g q) = v6 (ix3 (0 : Fin 1) v (0 : Fin 1)) then (1 : EReal) else 0 := by
  show FloatOps.sitofp .f32 ((IntOp.cmpi .eq
      (broadcastTo S8x128x1024 (shapeCast S8x1x1024 L shapeCasts_S8x1024_S8x1x1024) broadcasts_S8x1x1024_S8x128x1024 (ix3 g v q))
      (broadcastTo S8x128x1024 v6 broadcasts_S1x128x1_S8x128x1024 (ix3 g v q))).setWidth 32) = _
  rw [tokens_bcast_apply, entries_bcast_apply]
  by_cases h : L (ix2 g q) = v6 (ix3 (0 : Fin 1) v (0 : Fin 1))
  · rw [if_pos h, StableHlo.Predicate.cmpi_eq_iff.2 h]
    exact sitofp_bit_one
  · rw [if_neg h, eq_zero_of_ne_one (fun h1 => h (StableHlo.Predicate.cmpi_eq_iff.1 h1))]
    exact sitofp_bit_zero

/-- The index of the 8 × 128 × 1024 compare over (v, q) at row `g` is (g, v, q). -/
theorem lift_rows (v : Fin 128) (q : Fin 1024) (g : Fin 8) :
    reduces_S8x128x1024_S128x1024.lift (ix2 v q) g = ix3 g v q := by
  funext a
  match a with
  | ⟨0, _⟩ => exact Fin.ext rfl
  | ⟨1, _⟩ => exact Fin.ext rfl
  | ⟨2, _⟩ => exact Fin.ext rfl

/-- One chunk's compare summed over its eight rows, at (v, q): the number of the chunk's tokens in column `q` that are
    the word of entry `v`. -/
theorem chunk_sum (L : Vec Ideal S8x1024 .i32) (v6 : IVec S1x128x1 32) (v : Fin 128) (q : Fin 1024) :
    multiReduction .add [0] S128x1024
        (sitofp .f32 (extui 32 (cmpi .eq
          (broadcastTo S8x128x1024 (shapeCast S8x1x1024 L shapeCasts_S8x1024_S8x1x1024) broadcasts_S8x1x1024_S8x128x1024)
          (broadcastTo S8x128x1024 v6 broadcasts_S1x128x1_S8x128x1024)) natLt_1_32) : FVec Ideal S8x128x1024 .f32)
        0x00000000#32 reduces_S8x128x1024_S128x1024 (.inl rfl) rfl (ix2 v q)
      = ∑ g : Fin 8, if L (ix2 g q) = v6 (ix3 (0 : Fin 1) v (0 : Fin 1)) then (1 : EReal) else 0 := by
  refine (Ideal.multiReduction_add_single _ _ _ _ _ (ix2 v q)).trans ?_
  refine Fintype.sum_congr _ _ fun g => ?_
  exact (congrArg _ (lift_rows v q g)).trans (chunk_elem L v6 g v q)

/-! ## The entry words -/

/-- The word of `a * 128 + v` is the word of `v` plus the word of `a` times 128: no bound is needed, the words of
    natural numbers add and multiply as the numbers do, modulo `2 ^ 32`. -/
theorem entry_word (a v : ℕ) : BitVec.ofNat 32 v + BitVec.ofNat 32 a * 128#32 = BitVec.ofNat 32 (a * 128 + v) := by
  rw [BitVec.ofNat_add, BitVec.ofNat_mul]
  exact BitVec.add_comm _ _

/-- The entry words of tile `i 1`, read at entry `v`: the word of `128 (i 1) + v`. -/
theorem pay3_apply (i : grid0.Coords) (v : Fin 128) :
    k0_pay3 i (ix3 (0 : Fin 1) v (0 : Fin 1)) = BitVec.ofNat 32 ((i 1).val * 128 + v.val) := by
  show IntOp.addi (iota .tc S1x128x1 32 [1] iota_S1x128x1_d1_w32 (ix3 (0 : Fin 1) v (0 : Fin 1)))
      (IntOp.muli (BitVec.ofNat 32 (i 1).val) 128#32) = _
  rw [iota_single_apply]
  exact entry_word (i 1).val v.val

/-- One chunk's reduced compare against the entry words of tile `i 1`, at (v, q): the chunk's matches with the word of
    entry `128 (i 1) + v`. -/
theorem chunk_sum_pay3 (i : grid0.Coords) (L : Vec Ideal S8x1024 .i32) (v : Fin 128) (q : Fin 1024) :
    multiReduction .add [0] S128x1024
        (sitofp .f32 (extui 32 (cmpi .eq
          (broadcastTo S8x128x1024 (shapeCast S8x1x1024 L shapeCasts_S8x1024_S8x1x1024) broadcasts_S8x1x1024_S8x128x1024)
          (broadcastTo S8x128x1024 (k0_pay3 i) broadcasts_S1x128x1_S8x128x1024)) natLt_1_32) : FVec Ideal S8x128x1024 .f32)
        0x00000000#32 reduces_S8x128x1024_S128x1024 (.inl rfl) rfl (ix2 v q)
      = chunkMatches L ((i 1).val * 128 + v.val) q := by
  refine (chunk_sum L (k0_pay3 i) v q).trans ?_
  unfold chunkMatches
  rw [pay3_apply]

/-! ## The payloads, one layer at a time -/

/-- One chunk's compare against the entry words `v6`, widened and converted: an 8 × 128 × 1024 array of zeros and ones. -/
def chunkCmp (v6 : IVec S1x128x1 32) (L : Vec Ideal S8x1024 .i32) : FVec Ideal S8x128x1024 .f32 :=
  sitofp .f32 (extui 32 (cmpi .eq
    (broadcastTo S8x128x1024 (shapeCast S8x1x1024 L shapeCasts_S8x1024_S8x1x1024) broadcasts_S8x1x1024_S8x128x1024)
    (broadcastTo S8x128x1024 v6 broadcasts_S1x128x1_S8x128x1024)) natLt_1_32)

/-- The sum over the eight rows of an 8 × 128 × 1024 array. -/
def redRows (P : FVec Ideal S8x128x1024 .f32) : FVec Ideal S128x1024 .f32 :=
  multiReduction .add [0] S128x1024 P 0x00000000#32 reduces_S8x128x1024_S128x1024 (.inl rfl) rfl

/-- A chunk's compare against the entry words of tile `i 1`, summed over its rows, at (v, q): the chunk's matches with
    the word of entry `128 (i 1) + v`. -/
theorem redRows_chunkCmp (i : grid0.Coords) (L : Vec Ideal S8x1024 .i32) (v : Fin 128) (q : Fin 1024) :
    redRows (chunkCmp (k0_pay3 i) L) (ix2 v q) = chunkMatches L ((i 1).val * 128 + v.val) q :=
  chunk_sum_pay3 i L v q

theorem pay4_eq (i : grid0.Coords) (A B C : Vec Ideal S8x1024 .i32) :
    k0_pay4 (F := Ideal) i A B C
      = addf (addf (addf (broadcast S128x1024 (Scalar.ofBits (F := Ideal) .f32 0x00000000#32))
          (redRows (chunkCmp (k0_pay3 i) A))) (redRows (chunkCmp (k0_pay3 i) B))) (redRows (chunkCmp (k0_pay3 i) C)) := rfl

theorem pay5_eq (i : grid0.Coords) (L : Vec Ideal S8x1024 .i32) :
    k0_pay5 (F := Ideal) i L = chunkCmp (k0_pay3 i) L := rfl

theorem pay6_eq (v6 : IVec S1x128x1 32) (T : FVec Ideal S128x1024 .f32) (P : FVec Ideal S8x128x1024 .f32)
    (A B C D : Vec Ideal S8x1024 .i32) :
    k0_pay6 (F := Ideal) v6 T P A B C D
      = addf (addf (addf (addf (addf T (redRows P)) (redRows (chunkCmp v6 A))) (redRows (chunkCmp v6 B)))
          (redRows (chunkCmp v6 C))) (redRows (chunkCmp v6 D)) := rfl

theorem pay7_eq (v6 : IVec S1x128x1 32) (L : Vec Ideal S8x1024 .i32) : k0_pay7 (F := Ideal) v6 L = chunkCmp v6 L := rfl

theorem pay8_eq (v6 : IVec S1x128x1 32) (T : FVec Ideal S128x1024 .f32) (P : FVec Ideal S8x128x1024 .f32)
    (A B C D : Vec Ideal S8x1024 .i32) :
    k0_pay8 (F := Ideal) v6 T P A B C D
      = addf (addf (addf (addf (addf T (redRows P)) (redRows (chunkCmp v6 A))) (redRows (chunkCmp v6 B)))
          (redRows (chunkCmp v6 C))) (redRows (chunkCmp v6 D)) := rfl

theorem pay9_eq (v6 : IVec S1x128x1 32) (L : Vec Ideal S8x1024 .i32) : k0_pay9 (F := Ideal) v6 L = chunkCmp v6 L := rfl

theorem pay10_eq (v6 : IVec S1x128x1 32) (T : FVec Ideal S128x1024 .f32) (P : FVec Ideal S8x128x1024 .f32)
    (A B C D : Vec Ideal S8x1024 .i32) :
    k0_pay10 (F := Ideal) v6 T P A B C D
      = addf (addf (addf (addf (addf T (redRows P)) (redRows (chunkCmp v6 A))) (redRows (chunkCmp v6 B)))
          (redRows (chunkCmp v6 C))) (redRows (chunkCmp v6 D)) := rfl

theorem pay11_eq (v6 : IVec S1x128x1 32) (L : Vec Ideal S8x1024 .i32) : k0_pay11 (F := Ideal) v6 L = chunkCmp v6 L := rfl

theorem pay12_eq (v6 : IVec S1x128x1 32) (T : FVec Ideal S128x1024 .f32) (P : FVec Ideal S8x128x1024 .f32)
    (A B C D : Vec Ideal S8x1024 .i32) :
    k0_pay12 (F := Ideal) v6 T P A B C D
      = addf (addf (addf (addf (addf T (redRows P)) (redRows (chunkCmp v6 A))) (redRows (chunkCmp v6 B)))
          (redRows (chunkCmp v6 C))) (redRows (chunkCmp v6 D)) := rfl

theorem pay13_eq (v6 : IVec S1x128x1 32) (L : Vec Ideal S8x1024 .i32) : k0_pay13 (F := Ideal) v6 L = chunkCmp v6 L := rfl

/-- The table after the first three chunks, at (v, q): zero plus their matches, added from the left. -/
theorem pay4_apply (i : grid0.Coords) (A B C : Vec Ideal S8x1024 .i32) (v : Fin 128) (q : Fin 1024) :
    k0_pay4 (F := Ideal) i A B C (ix2 v q)
      = 0 + chunkMatches A ((i 1).val * 128 + v.val) q + chunkMatches B ((i 1).val * 128 + v.val) q
          + chunkMatches C ((i 1).val * 128 + v.val) q := by
  rw [pay4_eq]
  show (Ideal.ofBits .f32 0x00000000#32 : EReal) + redRows (chunkCmp (k0_pay3 i) A) (ix2 v q)
      + redRows (chunkCmp (k0_pay3 i) B) (ix2 v q) + redRows (chunkCmp (k0_pay3 i) C) (ix2 v q) = _
  rw [Ideal.ofBits_zero_f32, redRows_chunkCmp, redRows_chunkCmp, redRows_chunkCmp]

/-- A table plus the row sums of five chunks' compares against the entry words of tile `i 1`, at (v, q): the table
    there plus the five chunks' matches, added from the left. -/
theorem five_apply (i : grid0.Coords) (T : FVec Ideal S128x1024 .f32) (L A B C D : Vec Ideal S8x1024 .i32)
    (v : Fin 128) (q : Fin 1024) :
    addf (addf (addf (addf (addf T (redRows (chunkCmp (k0_pay3 i) L))) (redRows (chunkCmp (k0_pay3 i) A)))
        (redRows (chunkCmp (k0_pay3 i) B))) (redRows (chunkCmp (k0_pay3 i) C))) (redRows (chunkCmp (k0_pay3 i) D)) (ix2 v q)
      = T (ix2 v q) + chunkMatches L ((i 1).val * 128 + v.val) q + chunkMatches A ((i 1).val * 128 + v.val) q
          + chunkMatches B ((i 1).val * 128 + v.val) q + chunkMatches C ((i 1).val * 128 + v.val) q
          + chunkMatches D ((i 1).val * 128 + v.val) q := by
  show (T (ix2 v q) : EReal) + redRows (chunkCmp (k0_pay3 i) L) (ix2 v q) + redRows (chunkCmp (k0_pay3 i) A) (ix2 v q)
      + redRows (chunkCmp (k0_pay3 i) B) (ix2 v q) + redRows (chunkCmp (k0_pay3 i) C) (ix2 v q)
      + redRows (chunkCmp (k0_pay3 i) D) (ix2 v q) = _
  rw [redRows_chunkCmp, redRows_chunkCmp, redRows_chunkCmp, redRows_chunkCmp, redRows_chunkCmp]

theorem pay6_apply (i : grid0.Coords) (T : FVec Ideal S128x1024 .f32) (L A B C D : Vec Ideal S8x1024 .i32)
    (v : Fin 128) (q : Fin 1024) :
    k0_pay6 (F := Ideal) (k0_pay3 i) T (k0_pay5 i L) A B C D (ix2 v q)
      = T (ix2 v q) + chunkMatches L ((i 1).val * 128 + v.val) q + chunkMatches A ((i 1).val * 128 + v.val) q
          + chunkMatches B ((i 1).val * 128 + v.val) q + chunkMatches C ((i 1).val * 128 + v.val) q
          + chunkMatches D ((i 1).val * 128 + v.val) q := by
  rw [pay6_eq, pay5_eq]
  exact five_apply i T L A B C D v q

theorem pay8_apply (i : grid0.Coords) (T : FVec Ideal S128x1024 .f32) (L A B C D : Vec Ideal S8x1024 .i32)
    (v : Fin 128) (q : Fin 1024) :
    k0_pay8 (F := Ideal) (k0_pay3 i) T (k0_pay7 (k0_pay3 i) L) A B C D (ix2 v q)
      = T (ix2 v q) + chunkMatches L ((i 1).val * 128 + v.val) q + chunkMatches A ((i 1).val * 128 + v.val) q
          + chunkMatches B ((i 1).val * 128 + v.val) q + chunkMatches C ((i 1).val * 128 + v.val) q
          + chunkMatches D ((i 1).val * 128 + v.val) q := by
  rw [pay8_eq, pay7_eq]
  exact five_apply i T L A B C D v q

theorem pay10_apply (i : grid0.Coords) (T : FVec Ideal S128x1024 .f32) (L A B C D : Vec Ideal S8x1024 .i32)
    (v : Fin 128) (q : Fin 1024) :
    k0_pay10 (F := Ideal) (k0_pay3 i) T (k0_pay9 (k0_pay3 i) L) A B C D (ix2 v q)
      = T (ix2 v q) + chunkMatches L ((i 1).val * 128 + v.val) q + chunkMatches A ((i 1).val * 128 + v.val) q
          + chunkMatches B ((i 1).val * 128 + v.val) q + chunkMatches C ((i 1).val * 128 + v.val) q
          + chunkMatches D ((i 1).val * 128 + v.val) q := by
  rw [pay10_eq, pay9_eq]
  exact five_apply i T L A B C D v q

theorem pay12_apply (i : grid0.Coords) (T : FVec Ideal S128x1024 .f32) (L A B C D : Vec Ideal S8x1024 .i32)
    (v : Fin 128) (q : Fin 1024) :
    k0_pay12 (F := Ideal) (k0_pay3 i) T (k0_pay11 (k0_pay3 i) L) A B C D (ix2 v q)
      = T (ix2 v q) + chunkMatches L ((i 1).val * 128 + v.val) q + chunkMatches A ((i 1).val * 128 + v.val) q
          + chunkMatches B ((i 1).val * 128 + v.val) q + chunkMatches C ((i 1).val * 128 + v.val) q
          + chunkMatches D ((i 1).val * 128 + v.val) q := by
  rw [pay12_eq, pay11_eq]
  exact five_apply i T L A B C D v q

/-! ## The contraction of the table with the weights -/

theorem dot_lhs_0 (j : S1x1024.Idx) (k : dot_S1x128_S128x1024_S1x1024_1_0_0_1_n_n.contr.Idx) :
    (dot_S1x128_S128x1024_S1x1024_1_0_0_1_n_n.lhsIdx j k 0).val = (j 0).val := by
  unfold DotDims.lhsIdx
  rw [dif_neg (show ¬(0 : Fin S1x128.rank) ∈ dot_S1x128_S128x1024_S1x1024_1_0_0_1_n_n.lhsBatch by decide),
    dif_pos (show (0 : Fin S1x128.rank) ∈ dot_S1x128_S128x1024_S1x1024_1_0_0_1_n_n.lhsNonContracting by decide)]
  rfl

theorem dot_lhs_1 (j : S1x1024.Idx) (k : dot_S1x128_S128x1024_S1x1024_1_0_0_1_n_n.contr.Idx) :
    (dot_S1x128_S128x1024_S1x1024_1_0_0_1_n_n.lhsIdx j k 1).val = (k ⟨0, by decide⟩).val :=
  dot_S1x128_S128x1024_S1x1024_1_0_0_1_n_n.lhsIdx_val_of_single rfl j k

theorem dot_rhs_0 (j : S1x1024.Idx) (k : dot_S1x128_S128x1024_S1x1024_1_0_0_1_n_n.contr.Idx) :
    (dot_S1x128_S128x1024_S1x1024_1_0_0_1_n_n.rhsIdx j k 0).val = (k ⟨0, by decide⟩).val :=
  dot_S1x128_S128x1024_S1x1024_1_0_0_1_n_n.rhsIdx_val_of_single rfl j k

theorem dot_rhs_1 (j : S1x1024.Idx) (k : dot_S1x128_S128x1024_S1x1024_1_0_0_1_n_n.contr.Idx) :
    (dot_S1x128_S128x1024_S1x1024_1_0_0_1_n_n.rhsIdx j k 1).val = (j 1).val := by
  unfold DotDims.rhsIdx
  rw [dif_neg (show ¬(1 : Fin S128x1024.rank) ∈ dot_S1x128_S128x1024_S1x1024_1_0_0_1_n_n.rhsBatch by decide),
    dif_pos (show (1 : Fin S128x1024.rank) ∈ dot_S1x128_S128x1024_S1x1024_1_0_0_1_n_n.rhsNonContracting by decide)]
  rfl

/-- The product of the weight row with a 128 × 1024 table, accumulated into zero, at column `q`: the sum over the 128
    entries of weight times the table's entry. -/
theorem matmul_apply0 (W : FVec Ideal S1x128 .f32) (T : FVec Ideal S128x1024 .f32) (q : Fin 1024) :
    matmul dot_S1x128_S128x1024_S1x1024_1_0_0_1_n_n (some .fp32) W T (constant S1x1024 .f32 0x00000000#32) (ix2 (0 : Fin 1) q)
      = ∑ v : Fin 128, W (ix2 (0 : Fin 1) v) * T (ix2 v q) := by
  simp only [matmul]
  rw [Ideal.matmul_constant_zero_apply, ← Equiv.sum_comp (contrEquiv1 dot_S1x128_S128x1024_S1x1024_1_0_0_1_n_n 128 rfl rfl).symm]
  refine Finset.sum_congr rfl fun k _ => ?_
  have hk := contrEquiv1_symm_val dot_S1x128_S128x1024_S1x1024_1_0_0_1_n_n 128 rfl rfl k
  have el : dot_S1x128_S128x1024_S1x1024_1_0_0_1_n_n.lhsIdx (ix2 (0 : Fin 1) q) ((contrEquiv1 dot_S1x128_S128x1024_S1x1024_1_0_0_1_n_n 128 rfl rfl).symm k) = ix2 (0 : Fin 1) k :=
    funext fun a => Fin.ext (by
      match a with
      | ⟨0, _⟩ => exact dot_lhs_0 _ _
      | ⟨1, _⟩ => exact (dot_lhs_1 _ _).trans hk)
  have er : dot_S1x128_S128x1024_S1x1024_1_0_0_1_n_n.rhsIdx (ix2 (0 : Fin 1) q) ((contrEquiv1 dot_S1x128_S128x1024_S1x1024_1_0_0_1_n_n 128 rfl rfl).symm k) = ix2 k q :=
    funext fun a => Fin.ext (by
      match a with
      | ⟨0, _⟩ => exact (dot_rhs_0 _ _).trans hk
      | ⟨1, _⟩ => exact dot_rhs_1 _ _)
  rw [el, er]

theorem pay1_eq (v6 : IVec S1x128x1 32) (T : FVec Ideal S128x1024 .f32) (P : FVec Ideal S8x128x1024 .f32)
    (L : Vec Ideal S8x1024 .i32) (W : Vec Ideal S1x128 .f32) (ACC : Vec Ideal S1x1024 .f32) :
    k0_pay1 (F := Ideal) v6 T P L W ACC
      = shapeCast S1x1024 (addf ACC (matmul dot_S1x128_S128x1024_S1x1024_1_0_0_1_n_n (some .fp32)
          (shapeCast S1x128 W shapeCasts_S1x128_S1x128 : FVec Ideal S1x128 .f32)
          (addf (addf T (redRows P)) (redRows (chunkCmp v6 L))) (constant S1x1024 .f32 0x00000000#32)))
          shapeCasts_S1x1024_S1x1024 := rfl

/-- The new total at column `q`, from the table before the last two chunks: the old total plus the sum over the tile's
    entries of weight times the table's entry with the last two chunks' matches added. -/
theorem pay1_apply (i : grid0.Coords) (T : FVec Ideal S128x1024 .f32) (L23 L24 : Vec Ideal S8x1024 .i32)
    (W : Vec Ideal S1x128 .f32) (ACC : Vec Ideal S1x1024 .f32) (q : Fin 1024) :
    k0_pay1 (F := Ideal) (k0_pay3 i) T (k0_pay13 (k0_pay3 i) L23) L24 W ACC (ix2 (0 : Fin 1) q)
      = ACC (ix2 (0 : Fin 1) q) + ∑ v : Fin 128, W (ix2 (0 : Fin 1) v) *
          (T (ix2 v q) + chunkMatches L23 ((i 1).val * 128 + v.val) q + chunkMatches L24 ((i 1).val * 128 + v.val) q) := by
  rw [pay1_eq, pay13_eq, shapeCast_self, shapeCast_self]
  show (ACC (ix2 (0 : Fin 1) q) : EReal) + matmul dot_S1x128_S128x1024_S1x1024_1_0_0_1_n_n (some .fp32) (W : FVec Ideal S1x128 .f32)
      (addf (addf T (redRows (chunkCmp (k0_pay3 i) L23))) (redRows (chunkCmp (k0_pay3 i) L24)))
      (constant S1x1024 .f32 0x00000000#32) (ix2 (0 : Fin 1) q) = _
  rw [matmul_apply0]
  refine congrArg (ACC (ix2 (0 : Fin 1) q) + ·) (Fintype.sum_congr _ _ fun v => congrArg (W (ix2 (0 : Fin 1) v) * ·) ?_)
  show (T (ix2 v q) : EReal) + redRows (chunkCmp (k0_pay3 i) L23) (ix2 v q)
      + redRows (chunkCmp (k0_pay3 i) L24) (ix2 v q) = _
  rw [redRows_chunkCmp, redRows_chunkCmp]

/-- The new total at batch column `q`: the old total plus, over the tile's 128 entries, weight times the matches of
    the 25 chunks added from the left starting at zero. -/
theorem accOf_apply (i : grid0.Coords) (L0 L1 L2 L3 L4 L5 L6 L7 L8 L9 L10 L11 L12 L13 L14 L15 L16 L17 L18 L19 L20 L21 L22 L23 L24 : Vec Ideal S8x1024 .i32)
    (W : Vec Ideal S1x128 .f32) (ACC : Vec Ideal S1x1024 .f32) (q : Fin 1024) :
    accOf (F := Ideal) i L0 L1 L2 L3 L4 L5 L6 L7 L8 L9 L10 L11 L12 L13 L14 L15 L16 L17 L18 L19 L20 L21 L22 L23 L24 W ACC (ix2 (0 : Fin 1) q)
      = ACC (ix2 (0 : Fin 1) q) + ∑ v : Fin 128, W (ix2 (0 : Fin 1) v) *
          (0 + chunkMatches L0 ((i 1).val * 128 + v.val) q
            + chunkMatches L1 ((i 1).val * 128 + v.val) q
            + chunkMatches L2 ((i 1).val * 128 + v.val) q
            + chunkMatches L3 ((i 1).val * 128 + v.val) q
            + chunkMatches L4 ((i 1).val * 128 + v.val) q
            + chunkMatches L5 ((i 1).val * 128 + v.val) q
            + chunkMatches L6 ((i 1).val * 128 + v.val) q
            + chunkMatches L7 ((i 1).val * 128 + v.val) q
            + chunkMatches L8 ((i 1).val * 128 + v.val) q
            + chunkMatches L9 ((i 1).val * 128 + v.val) q
            + chunkMatches L10 ((i 1).val * 128 + v.val) q
            + chunkMatches L11 ((i 1).val * 128 + v.val) q
            + chunkMatches L12 ((i 1).val * 128 + v.val) q
            + chunkMatches L13 ((i 1).val * 128 + v.val) q
            + chunkMatches L14 ((i 1).val * 128 + v.val) q
            + chunkMatches L15 ((i 1).val * 128 + v.val) q
            + chunkMatches L16 ((i 1).val * 128 + v.val) q
            + chunkMatches L17 ((i 1).val * 128 + v.val) q
            + chunkMatches L18 ((i 1).val * 128 + v.val) q
            + chunkMatches L19 ((i 1).val * 128 + v.val) q
            + chunkMatches L20 ((i 1).val * 128 + v.val) q
            + chunkMatches L21 ((i 1).val * 128 + v.val) q
            + chunkMatches L22 ((i 1).val * 128 + v.val) q
            + chunkMatches L23 ((i 1).val * 128 + v.val) q
            + chunkMatches L24 ((i 1).val * 128 + v.val) q) := by
  unfold accOf
  rw [pay1_apply]
  refine congrArg (ACC (ix2 (0 : Fin 1) q) + ·) (Fintype.sum_congr _ _ fun v => congrArg (W (ix2 (0 : Fin 1) v) * ·) ?_)
  rw [pay12_apply, pay10_apply, pay8_apply, pay6_apply, pay4_apply]

/-! ## A chunk read through its window of the token block -/

/-- The matches of the chunk loaded from rows `8 k … 8 k + 7` of the token block are the chunk count of column `q`. -/
theorem chunk_ld (x0 : Vec Ideal S200x1024 .i32) (k : Fin 25) (off : ℕ) (hoff : off = k.val * 8)
    (inb : ∀ a, (![off, 0] : Fin 2 → Nat) a + S8x1024.size a ≤ S200x1024.size a) (n : ℕ) (q : Fin 1024) :
    chunkMatches (View.ld x0 (Rect.unit (s := S200x1024) ![off, 0] S8x1024.size inb)) n q
      = Cert.BagOfWords.chunkCount (fun s : Fin 200 => x0 (ix2 s q)) n k := by
  subst hoff
  unfold chunkMatches Cert.BagOfWords.chunkCount
  refine Fintype.sum_congr _ _ fun g => ?_
  have hidx : (Rect.unit (s := S200x1024) ![k.val * 8, 0] S8x1024.size inb).idx (ix2 g q)
      = ix2 (Cert.BagOfWords.chunkRow k g) q := by
    funext a
    match a with
    | ⟨0, _⟩ => exact Fin.ext (by show k.val * 8 + 1 * g.val = k.val * 8 + g.val; omega)
    | ⟨1, _⟩ => exact Fin.ext (by show 0 + 1 * q.val = q.val; omega)
  show (if x0 ((Rect.unit (s := S200x1024) ![k.val * 8, 0] S8x1024.size inb).idx (ix2 g q)) = BitVec.ofNat 32 n
      then (1 : EReal) else 0) = _
  rw [hidx]

/-- The new total at batch column `q` from the whole token block: the old total plus, over the tile's 128 entries,
    weight times the column's count of the entry. -/
theorem accStep_apply (i : grid0.Coords) (x0 : Vec Ideal S200x1024 .i32) (x1 : Vec Ideal S1x128 .f32)
    (xs0 : Vec Ideal S1x1024 .f32) (q : Fin 1024) :
    accStep (F := Ideal) i x0 x1 xs0 (ix2 (0 : Fin 1) q)
      = xs0 (ix2 (0 : Fin 1) q) + ∑ v : Fin 128, x1 (ix2 (0 : Fin 1) v) *
          Cert.BagOfWords.count (fun s : Fin 200 => x0 (ix2 s q)) ((i 1).val * 128 + v.val) := by
  unfold accStep
  rw [accOf_apply]
  refine congrArg (xs0 (ix2 (0 : Fin 1) q) + ·) (Fintype.sum_congr _ _ fun v => congrArg (x1 (ix2 (0 : Fin 1) v) * ·) ?_)
  have hi : (i 1).val < 782 := (i 1).isLt
  have hn : (i 1).val * 128 + v.val < 2 ^ 31 := by have := v.isLt; omega
  rw [chunk_ld x0 0 0 rfl, chunk_ld x0 1 8 rfl, chunk_ld x0 2 16 rfl, chunk_ld x0 3 24 rfl, chunk_ld x0 4 32 rfl,
    chunk_ld x0 5 40 rfl, chunk_ld x0 6 48 rfl, chunk_ld x0 7 56 rfl, chunk_ld x0 8 64 rfl, chunk_ld x0 9 72 rfl,
    chunk_ld x0 10 80 rfl, chunk_ld x0 11 88 rfl, chunk_ld x0 12 96 rfl, chunk_ld x0 13 104 rfl, chunk_ld x0 14 112 rfl,
    chunk_ld x0 15 120 rfl, chunk_ld x0 16 128 rfl, chunk_ld x0 17 136 rfl, chunk_ld x0 18 144 rfl, chunk_ld x0 19 152 rfl,
    chunk_ld x0 20 160 rfl, chunk_ld x0 21 168 rfl, chunk_ld x0 22 176 rfl, chunk_ld x0 23 184 rfl, chunk_ld x0 24 192 rfl]
  exact (Cert.BagOfWords.nest25 _).trans (Cert.BagOfWords.sum_chunkCount _ _ hn)

end Cert.KernelIdeal.Body

end
-- ==== Proof.KernelPieces.lean ====
/-
  WHAT EACH CASE OF THE BODY LEAVES BEHIND, as the pure function of one grid point. The body has three cases by the
  vocabulary tile: the first tile (the running total is reset to zero and then the tile's weighted counts are added),
  a middle tile (the tile's weighted counts are added to the total the tile before left), and the last tile (the same,
  and the total is then copied into the output block). In every case the scratch row ends at the new running total
  of that point, and in the last case so does the output block.
-/
import proofs.«420262_j8151847928094_4_alg».proof.Proof.Gen.KernelIdeal.Frame
import proofs.«420262_j8151847928094_4_alg».proof.Proof.KernelBody

set_option maxRecDepth 16384

noncomputable section

namespace Cert.KernelIdeal.Pieces

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer rectangle. -/
theorem hz : (![0, 0] : Fin 2 → Nat) = fun _ => 0 := funext fun a => by fin_cases a <;> rfl

/-- A middle tile leaves in the scratch row the new running total over the total the tile before left. -/
theorem sout0_B_0_eq (c : Dev nD) (i : grid0.Coords) (arg2 : Memref sig .tc .vmem S200x1024 .i32) (harg2 : arg2.IsWhole) (arg3 : Memref sig .tc .vmem S1x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : ¬cond0_1 i)
    (x0 : Vec F S200x1024 .i32) (x1 : Vec F S1x128 .f32) (xs0 : Vec F S1x1024 .f32) :
    sout0_B_0 c i arg2 harg2 arg3 harg3 arg4 harg4 arg5 harg5 hc0 hc1 x0 x1 xs0 = accStep i x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread,
    View.ld_unit_zero (S := S1x128) hz, View.ld_unit_zero (S := S1x1024) hz]
  rfl

/-- The last tile leaves in the scratch row the new running total over the total the tile before left. -/
theorem sout0_C_0_eq (c : Dev nD) (i : grid0.Coords) (arg2 : Memref sig .tc .vmem S200x1024 .i32) (harg2 : arg2.IsWhole) (arg3 : Memref sig .tc .vmem S1x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i)
    (x0 : Vec F S200x1024 .i32) (x1 : Vec F S1x128 .f32) (xs0 : Vec F S1x1024 .f32) :
    sout0_C_0 c i arg2 harg2 arg3 harg3 arg4 harg4 arg5 harg5 hc0 hc1 x0 x1 xs0 = accStep i x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread,
    View.ld_unit_zero (S := S1x128) hz, View.ld_unit_zero (S := S1x1024) hz]
  rfl

/-- The last tile copies that total into the output block. -/
theorem out0_C_2_eq (c : Dev nD) (i : grid0.Coords) (arg2 : Memref sig .tc .vmem S200x1024 .i32) (harg2 : arg2.IsWhole) (arg3 : Memref sig .tc .vmem S1x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i)
    (x0 : Vec F S200x1024 .i32) (x1 : Vec F S1x128 .f32) (xs0 : Vec F S1x1024 .f32) :
    out0_C_2 c i arg2 harg2 arg3 harg3 arg4 harg4 arg5 harg5 hc0 hc1 x0 x1 xs0 = accStep i x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S1x1024) _ hz]
  simp only [View.readAt_eq_ld, harg2.read_unread, harg3.read_unread, harg5.read_unread,
    View.ld_unit_zero (S := S1x128) hz, View.ld_unit_zero (S := S1x1024) hz]
  rfl

/-- The first tile leaves in the scratch row the new running total over zero. -/
theorem sout0_A_0_eq (c : Dev nD) (i : grid0.Coords) (arg2 : Memref sig .tc .vmem S200x1024 .i32) (harg2 : arg2.IsWhole) (arg3 : Memref sig .tc .vmem S1x128 .f32) (harg3 : arg3.IsWhole) (arg4 : Memref sig .tc .vmem S1x1024 .f32) (harg4 : arg4.IsWhole) (arg5 : Memref sig .tc .vmem S1x1024 .f32) (harg5 : arg5.IsWhole) (hc0 : cond0_0 i) (hc1 : ¬cond0_1 i)
    (x0 : Vec F S200x1024 .i32) (x1 : Vec F S1x128 .f32) :
    sout0_A_0 c i arg2 harg2 arg3 harg3 arg4 harg4 arg5 harg5 hc0 hc1 x0 x1 = accStep i x0 x1 (k0_pay2 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1024) hz]
  simp only [View.readAt_eq_ld, harg2.read_unread, harg3.read_unread,
    View.ld_unit_zero (S := S1x128) hz, View.readCov_unit_zero (S := S1x1024) _ hz]
  rfl

end Cert.KernelIdeal.Pieces

end
-- ==== Proof.KernelAccum.lean ====
/-
  THE RUNNING TOTAL, POINT BY POINT. Along the 782 vocabulary tiles of one batch tile the scratch row holds, after tile
  `j`, the sum of the block sums of tiles `0 … j` — weight times count over each tile's 128 padded vocabulary entries —
  for each of the tile's 1024 batch columns: the first tile starts the total at zero, every later tile adds its block
  sum to what the tile before left. After the last tile the total is the weighted count of the column, and that is
  what the last tile copies into the output block.
-/
import proofs.«420262_j8151847928094_4_alg».proof.Proof.Gen.KernelIdeal.Frame
import proofs.«420262_j8151847928094_4_alg».proof.Proof.KernelBody
import proofs.«420262_j8151847928094_4_alg».proof.Proof.KernelBlocks
import proofs.«420262_j8151847928094_4_alg».proof.Proof.KernelPieces

set_option maxRecDepth 16384

noncomputable section

namespace Cert.KernelIdeal.Accum

open Cert.KernelIdeal Cert.KernelIdeal.Gen Cert.KernelIdeal.Body Cert.KernelIdeal.Blocks Cert.KernelIdeal.Pieces
open Cert.BagOfWords
open Idealize.ShloMosaic Idealize.ShloMosaic.TcCoe Idealize.ShloMosaic.ValueIdx Idealize.SL.Sem
open scoped BigOperators

variable (m : (ℓ : Loc nD τ sig) → Buf (Elt Ideal) ℓ)

/-- The batch column of the token array that column `q` of point `t`'s token block is. -/
def colOf (c : Dev nD) (t : Fin cfg0.N) (q : Fin 1024) : Fin 200 → BitVec 32 :=
  column (tokens m c) ⟨t.val / 782 * 1024 + q.val, col_lt t q⟩

/-- The reset value of the running total is zero. -/
theorem reset_apply (y : S1x1024.Idx) : (k0_pay2 (F := Ideal)) y = 0 := by
  show Ideal.ofBits .f32 0x00000000#32 = 0
  exact Ideal.ofBits_zero_f32

/-- One tile: the new total at column `q` is the old total plus the tile's block sum for that column. -/
theorem step_apply (c : Dev nD) (t : Fin cfg0.N) (acc : Vec Ideal S1x1024 .f32) (q : Fin 1024) :
    accStep (F := Ideal) (grid0.coords t) (tblk m c t) (wblk m c t) acc (ix2 (0 : Fin 1) q)
      = acc (ix2 (0 : Fin 1) q) + blockSum (weights m c) (colOf m c t q) (t.val % 782) := by
  rw [accStep_apply]
  congr 1
  unfold blockSum
  refine Finset.sum_congr rfl fun v _ => ?_
  rw [wblk_apply, coords_tile, dif_pos (ent_lt t v)]
  congr 2
  funext s
  exact tblk_apply m c t s q

/-- At a first tile the scratch row is the step over zero. -/
theorem scr_A (c : Dev nD) (t : Fin cfg0.N) (h0 : t.val % 782 = 0) (h1 : ¬t.val % 782 = 781) :
    (outsAt0 m c t.val t.isLt).2 = accStep (grid0.coords t) (tblk m c t) (wblk m c t) (k0_pay2 (F := Ideal)) := by
  rw [outsAt0_A m c t h0 h1]
  dsimp only
  exact sout0_A_0_eq (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- At a middle tile the scratch row is the step over what the point before left in it. -/
theorem scr_B (c : Dev nD) (t : Fin cfg0.N) (h0 : ¬t.val % 782 = 0) (h1 : ¬t.val % 782 = 781) :
    (outsAt0 m c t.val t.isLt).2 = accStep (grid0.coords t) (tblk m c t) (wblk m c t)
      (outsAt0 m c (t.val - 1) (Nat.lt_of_le_of_lt (Nat.sub_le _ _) t.isLt)).2 := by
  rw [outsAt0_B m c t h0 h1]
  dsimp only
  exact sout0_B_0_eq (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- At a last tile the scratch row is the step over what the point before left in it … -/
theorem scr_C (c : Dev nD) (t : Fin cfg0.N) (h0 : ¬t.val % 782 = 0) (h1 : t.val % 782 = 781) :
    (outsAt0 m c t.val t.isLt).2 = accStep (grid0.coords t) (tblk m c t) (wblk m c t)
      (outsAt0 m c (t.val - 1) (Nat.lt_of_le_of_lt (Nat.sub_le _ _) t.isLt)).2 := by
  rw [outsAt0_C m c t h0 h1]
  dsimp only
  exact sout0_C_0_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- … and so is the output block. -/
theorem out_C (c : Dev nD) (t : Fin cfg0.N) (h0 : ¬t.val % 782 = 0) (h1 : t.val % 782 = 781) :
    (outsAt0 m c t.val t.isLt).1 = accStep (grid0.coords t) (tblk m c t) (wblk m c t)
      (outsAt0 m c (t.val - 1) (Nat.lt_of_le_of_lt (Nat.sub_le _ _) t.isLt)).2 := by
  rw [outsAt0_C m c t h0 h1]
  dsimp only
  exact out0_C_2_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- Within one batch tile, a point and the point before it read the same batch columns. -/
theorem colOf_pred (c : Dev nD) (n : ℕ) (hn : n + 1 < cfg0.N) (h0 : ¬(n + 1) % 782 = 0) (q : Fin 1024) :
    colOf m c ⟨n, Nat.lt_of_succ_lt hn⟩ q = colOf m c ⟨n + 1, hn⟩ q := by
  unfold colOf
  congr 1
  apply Fin.ext
  show n / 782 * 1024 + q.val = (n + 1) / 782 * 1024 + q.val
  have : n / 782 = (n + 1) / 782 := by omega
  rw [this]

/-- THE INVARIANT: after point `n` the scratch row holds, at column `q`, the block sums of the tiles up to `n`'s. -/
theorem scratch_eq (c : Dev nD) : ∀ (n : ℕ) (hn : n < cfg0.N) (q : Fin 1024),
    ((outsAt0 m c n hn).2 : Vec Ideal S1x1024 .f32) (ix2 (0 : Fin 1) q)
      = ∑ j ∈ Finset.range (n % 782 + 1), blockSum (weights m c) (colOf m c ⟨n, hn⟩ q) j := by
  intro n
  induction n with
  | zero =>
    intro hn q
    have e := scr_A m c ⟨0, hn⟩ (Nat.zero_mod _) (by show ¬0 % 782 = 781; decide)
    refine (congrFun e (ix2 (0 : Fin 1) q)).trans ?_
    rw [step_apply, reset_apply, zero_add]
    show blockSum _ _ (0 % 782) = ∑ j ∈ Finset.range (0 % 782 + 1), _
    rw [Nat.zero_mod, Finset.sum_range_one]
  | succ n ih =>
    intro hn q
    by_cases h0 : (n + 1) % 782 = 0
    · have h1 : ¬(n + 1) % 782 = 781 := by omega
      have e := scr_A m c ⟨n + 1, hn⟩ h0 h1
      refine (congrFun e (ix2 (0 : Fin 1) q)).trans ?_
      rw [step_apply, reset_apply, zero_add]
      show blockSum _ _ ((n + 1) % 782) = ∑ j ∈ Finset.range ((n + 1) % 782 + 1), _
      rw [h0, Finset.sum_range_one]
    · have hprev := ih (Nat.lt_of_succ_lt hn) q
      have hmod : n % 782 + 1 = (n + 1) % 782 := by omega
      have e : (outsAt0 m c (n + 1) hn).2 = accStep (grid0.coords ⟨n + 1, hn⟩) (tblk m c ⟨n + 1, hn⟩) (wblk m c ⟨n + 1, hn⟩)
          (outsAt0 m c n (Nat.lt_of_succ_lt hn)).2 := by
        by_cases h1 : (n + 1) % 782 = 781
        · exact scr_C m c ⟨n + 1, hn⟩ h0 h1
        · exact scr_B m c ⟨n + 1, hn⟩ h0 h1
      refine (congrFun e (ix2 (0 : Fin 1) q)).trans ?_
      rw [step_apply, hprev, colOf_pred m c n hn h0 q, hmod]
      exact (Finset.sum_range_succ _ _).symm

/-- After the last tile of a batch tile the output block holds, at column `q`, the weighted count of that column. -/
theorem out_eq (c : Dev nD) (t : Fin cfg0.N) (h1 : t.val % 782 = 781) (q : Fin 1024) :
    ((outsAt0 m c t.val t.isLt).1 : Vec Ideal S1x1024 .f32) (ix2 (0 : Fin 1) q)
      = weighted (weights m c) (colOf m c t q) := by
  have h0 : ¬t.val % 782 = 0 := by omega
  have e : (outsAt0 m c t.val t.isLt).1 = (outsAt0 m c t.val t.isLt).2 := (out_C m c t h0 h1).trans (scr_C m c t h0 h1).symm
  rw [e, scratch_eq m c t.val t.isLt q, h1]
  exact sum_blockSum (weights m c) (colOf m c t q)

end Cert.KernelIdeal.Accum

end
-- ==== Proof.KernelValue.lean ====
/-
  THE KERNEL PROGRAM'S RESULT. The pallas_call's output array is one row of 2048 numbers: batch tile `i`'s 1024
  columns are written back once, after the last vocabulary tile, with the weighted counts of those columns; the two
  blocks tile the row. The program then drops the row's unit axis and adds the bias to every entry: that is the
  bag-of-words layer of the token array, the weights and the bias the program was given.
-/
import proofs.«420262_j8151847928094_4_alg».proof.Proof.Gen.KernelIdeal.Frame
import proofs.«420262_j8151847928094_4_alg».proof.Proof.KernelBlocks
import proofs.«420262_j8151847928094_4_alg».proof.Proof.KernelAccum
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HistValue

open Cert.KernelIdeal Cert.KernelIdeal.Gen Cert.KernelIdeal.Blocks Cert.KernelIdeal.Accum Cert.BagOfWords
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The output row: at column `b` the weighted count of batch column `b`. -/
def outRow (c : Dev nD) : S1x2048.Idx → EReal :=
  fun i => weighted (weights m c) (column (tokens m c) ⟨(i 1).val, (i 1).isLt⟩)

theorem outRow_apply (c : Dev nD) (b : Fin 2048) :
    outRow m c (ix2 (0 : Fin 1) b) = weighted (weights m c) (column (tokens m c) b) := rfl

/-- The output window's index map over the grid: the one row, and the batch tile of the point. -/
theorem idx_out : ∀ t : Fin cfg0.N, win0_2.index t (0 : Fin 2) = 0 ∧ win0_2.index t (1 : Fin 2) = t.val / 782 :=
  (by decide +kernel : ∀ t : Fin grid0.N, _)

/-- Where the output window's block at point `t` puts its column `q` in the output row. -/
theorem oemb (t : Fin cfg0.N) (q : Fin 1024) :
    ((cfg0.win 2).blk t).view.emb (ix2 (0 : Fin 1) q) = ix2 (0 : Fin 1) ⟨t.val / 782 * 1024 + q.val, col_lt t q⟩ := by
  obtain ⟨e0, e1⟩ := idx_out t
  funext a; apply Fin.ext
  match a with
  | ⟨0, _⟩ => show win0_2.index t (0 : Fin 2) * 1 + 1 * 0 = 0; omega
  | ⟨1, _⟩ => show win0_2.index t (1 : Fin 2) * 1024 + 1 * q.val = t.val / 782 * 1024 + q.val; omega

/-- What a writing-back point writes back is its block of the output row. -/
theorem flushed_eq (c : Dev nD) (t : Fin cfg0.N) (hf : (cfg0.win 2).flush t = true) :
    (dats m 0 c).flushed 2 t = ((cfg0.win 2).blk t).view.read (Elt Ideal) (outRow m c) := by
  show (cfg0.win 2).cut (grid0.coords t) ((dats m 0 c).after 2 t) = _
  rw [after0_2]
  funext y
  obtain ⟨q, rfl⟩ : ∃ q : Fin 1024, y = ix2 (0 : Fin 1) q := ⟨y 1, by
    funext a; match a with
    | ⟨0, _⟩ => exact Fin.ext (by have h : (y 0).val < 1 := (y 0).isLt; show (y 0).val = 0; omega)
    | ⟨1, _⟩ => rfl⟩
  rw [View.read_apply, oemb t q, outRow_apply]
  have hx : (cfg0.win 2).xinj (grid0.coords t) (ix2 (0 : Fin 1) q) = ix2 (0 : Fin 1) q := by
    funext a; match a with
    | ⟨0, _⟩ => rfl
    | ⟨1, _⟩ => rfl
  show ((outsAt0 m c t.val t.isLt).1 : Vec Ideal S1x1024 .f32) ((cfg0.win 2).xinj (grid0.coords t) (ix2 (0 : Fin 1) q)) = _
  rw [hx]
  refine (out_eq m c t ((flush0_2 t).mp hf) q).trans ?_
  unfold colOf
  rw [cast_eq]

/-- An index of the output row is in point `t`'s block iff each coordinate is in the block's range on its axis. -/
theorem mem_blk (t : Fin cfg0.N) (i : S1x2048.Idx) :
    i ∈ ((cfg0.win 2).blk t).view.set ↔ ∀ a : Fin 2, win0_2.index t a * S1x1024.size a ≤ (i a).val ∧ (i a).val < win0_2.index t a * S1x1024.size a + S1x1024.size a := by
  show i ∈ ((View.whole main_v3).slice (win0_2.rect t)).set ↔ _
  rw [View.set_slice_whole, Rect.mem_set_unit]
  exact Iff.rfl

/-- Every column of the output row is in the block the last vocabulary tile of its batch tile writes back. -/
theorem cover (i : S1x2048.Idx) :
    ∃ t : Fin cfg0.N, (cfg0.win 2).flush t = true ∧ i ∈ ((cfg0.win 2).blk t).view.set := by
  have hi0 : (i 0).val < 1 := (i 0).isLt
  have hi1 : (i 1).val < 2048 := (i 1).isLt
  have hN : cfg0.N = 1564 := N_0
  obtain ⟨t, htv⟩ : ∃ t : Fin cfg0.N, t.val = 782 * ((i 1).val / 1024) + 781 :=
    ⟨⟨782 * ((i 1).val / 1024) + 781, by omega⟩, rfl⟩
  refine ⟨t, (flush0_2 t).mpr (by omega), ?_⟩
  rw [mem_blk]
  obtain ⟨e0, e1⟩ := idx_out t
  intro a
  match a with
  | ⟨0, _⟩ =>
    show win0_2.index t (0 : Fin 2) * 1 ≤ (i 0).val ∧ (i 0).val < win0_2.index t (0 : Fin 2) * 1 + 1
    omega
  | ⟨1, _⟩ =>
    show win0_2.index t (1 : Fin 2) * 1024 ≤ (i 1).val ∧ (i 1).val < win0_2.index t (1 : Fin 2) * 1024 + 1024
    omega

/-- The output array after the region is the output row. -/
theorem final (c : Dev nD) : (dats m 0 c).arrAt 2 cfg0.N = outRow m c :=
  (dats m 0 c).arrAt_eq_of_cover 2 (outRow m c) (fun t hf => flushed_eq m c t hf) cover

/-! ## The lines after the region -/

/-- Dropping the row's unit axis and adding the bias, broadcast from its one entry, read at column `b`. -/
theorem tail_apply (row : S1x2048.Idx → EReal) (bias : S1.Idx → EReal) (b : Fin 2048) :
    addf (F := Ideal) (s := S2048) (φ := .f32) (shapeCast S2048 row shapeCasts_S1x2048_S2048)
        (broadcastInDim S2048 ![] bcast_S_S2048 (shapeCast S_ bias shapeCasts_S1_S_)) (ix1 b)
      = row (ix2 (0 : Fin 1) b) + bias (ix1 (0 : Fin 1)) := by
  rw [addf_apply]
  have h1 : shapeCast S2048 row shapeCasts_S1x2048_S2048 (ix1 b) = row (ix2 (0 : Fin 1) b) := by
    refine shapeCast_apply row shapeCasts_S1x2048_S2048 (ix1 b) (ix2 (0 : Fin 1) b) ?_
    rw [Shape.rowMajor_val_two, Shape.rowMajor_val_one]
    show 0 * 2048 + b.val = b.val
    omega
  have h2 : broadcastInDim S2048 ![] bcast_S_S2048 (shapeCast S_ bias shapeCasts_S1_S_) (ix1 b) = bias (ix1 (0 : Fin 1)) := by
    refine (broadcastInDim_apply ![] bcast_S_S2048 _ (ix1 b) ix0 (fun a => a.elim0)).trans ?_
    refine shapeCast_apply bias shapeCasts_S1_S_ ix0 (ix1 (0 : Fin 1)) ?_
    rw [Shape.rowMajor_val_one]
    have h0 : (S_.rowMajor ix0).val < S_.numel := (S_.rowMajor ix0).isLt
    have hn : S_.numel = 1 := by decide
    show 0 = (S_.rowMajor ix0).val
    omega
  rw [h1, h2]

/-- After the lines that follow the region the result buffer holds the bag-of-words layer. -/
theorem tail_eq (c : Dev nD) :
    Pipeline.afterTail₀ cfgs (dats m) 0 (V0 m) [hostOps1] c main_v7
      = bow (tokens m c) (weights m c) (m ((c.tc : Thread nD τ).loc main_arg2)) := by
  unfold Pipeline.afterTail₀
  simp only [Gen.hostOps1, List.flatten_cons, List.flatten_nil, List.append_nil]
  after_results
  have h3 : Pipeline.withArrays (cfgs 0).spec c (V0 m c) (fun w => (dats m 0 c).arrAt w (cfgs 0).N)
      (Proc.devRef .tc main_v3) = outRow m c :=
    (Pipeline.withArrays_arr spec0 launch0.win.arr_inj c _ _ 2).trans (final m c)
  have h2 : Pipeline.withArrays (cfgs 0).spec c (V0 m c) (fun w => (dats m 0 c).arrAt w (cfgs 0).N)
      (Proc.devRef .tc main_arg2) = m ((c.tc : Thread nD τ).loc main_arg2) :=
    (Pipeline.withArrays_of_ne _ c (V0 m c) _ main_arg2
      (by exact (by decide : ∀ w, Pipeline.arrRef spec0 w ≠ main_arg2))).trans (V_main_arg2 m c)
  rw [h3, h2]
  funext i
  obtain ⟨b, rfl⟩ : ∃ b : Fin 2048, i = ix1 b := ⟨i 0, eq_ix1 i⟩
  rw [bow_apply]
  refine (tail_apply (outRow m c) (m ((c.tc : Thread nD τ).loc main_arg2)) b).trans ?_
  rw [outRow_apply]

/-- THE RUN: the program ends with its result at the bag-of-words layer of its arguments, the arguments unchanged. -/
theorem run : θ_run defs (onTc (τ := τ) (main (F := Ideal))) ⟨m, fun _ => 0, ρ⟩ (fun r => ∀ c : Dev nD,
      r.2.mem ((c.tc : Thread nD τ).loc main_v7)
        = bow (tokens m c) (weights m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.HistValue

end
-- ==== Proof.LibScatterPair.lean ====
/-
  AN ACCUMULATING SCATTER WITH TWO INDEX WORDS PER UPDATE, READ AT AN INDEX. At the ideal instance a host scatter
  with an add body is, at each operand index, the operand's element plus the sum of the updates whose result index
  is that index; the start index is read signed and not clamped, and an update that lands outside the operand adds
  nothing. Here the operand is `[M, N]`, the scatter indices are `[A, B, 2]` with the index vector on the last
  axis, and the updates are `[A, B]`: there is no window axis, both operand axes are inserted, and component `0`
  of the index vector is the start on operand axis 0, component `1` the start on operand axis 1. So update `(a, b)`
  lands on `(idx (a, b, 0), idx (a, b, 1))`, both words read signed, when that is inside the operand, and the
  scatter at `(r, n)` is the operand's element plus the double sum over `(a, b)` of the update element where both
  words equal the coordinates `r` and `n`, and `0` elsewhere. The steps: where an update reads each component of its
  start index; the start and the window coordinate on each operand axis; when an update lands on a given index;
  then the sum re-indexed by coordinates.
-/
import Idealize.ShloMosaic.PureOps.Ideal
import Idealize.ShloMosaic.Lib.ValueIdx

noncomputable section

open Idealize.ShloMosaic Idealize.ShloMosaic.ValueIdx
open scoped BigOperators

namespace Cert.LibScatterPair

section Pairs
variable {M N A B w : Nat}
  (h : ScatterDims.WF (⟨2, ![M, N]⟩ : Shape) (⟨3, ![A, B, 2]⟩ : Shape) (⟨2, ![A, B]⟩ : Shape) [] [0, 1] [0, 1] 2)

/-- The dimension numbers: no update window axis, both operand axes inserted, start-index component `0` for
    operand axis 0 and component `1` for operand axis 1, the index vector on the scatter indices' axis 2. -/
abbrev pairDims : ScatterDims (⟨2, ![M, N]⟩ : Shape) (⟨3, ![A, B, 2]⟩ : Shape) (⟨2, ![A, B]⟩ : Shape) :=
  ⟨[], [0, 1], [0, 1], 2, h⟩

/-- Update `j` reads component `c` of its start index at `(j 0, j 1, c)` of the scatter indices. -/
theorem pair_siIdx (j : (⟨2, ![A, B]⟩ : Shape).Idx) (c : Fin (pairDims h).scatterDimsToOperandDims.length) :
    (pairDims h).siIdx j c = ix3 (j 0) (j 1) (⟨c.val, c.isLt⟩ : Fin 2) := by
  funext b; refine Fin.ext ?_
  match b with
  | ⟨0, _⟩ => rfl
  | ⟨1, _⟩ => rfl
  | ⟨2, _⟩ => rfl

/-- On operand axis 0 the window starts at word `0` of update `j`'s index vector, read signed. -/
theorem pair_start0 (j : (⟨2, ![A, B]⟩ : Shape).Idx) (idx : IVec (⟨3, ![A, B, 2]⟩ : Shape) w) (h0) :
    (pairDims h).start j idx ⟨0, h0⟩ = (idx (ix3 (j 0) (j 1) (0 : Fin 2))).toInt := by
  have hm : (⟨0, h0⟩ : Fin (⟨2, ![M, N]⟩ : Shape).rank) ∈ (pairDims h).scatterDimsToOperandDims := by
    show (0 : Fin 2) ∈ ([0, 1] : List (Fin 2)); decide
  unfold ScatterDims.start
  rw [dif_pos hm, pair_siIdx h j]
  rfl

/-- On operand axis 1 the window starts at word `1` of update `j`'s index vector, read signed. -/
theorem pair_start1 (j : (⟨2, ![A, B]⟩ : Shape).Idx) (idx : IVec (⟨3, ![A, B, 2]⟩ : Shape) w) (h1) :
    (pairDims h).start j idx ⟨1, h1⟩ = (idx (ix3 (j 0) (j 1) (1 : Fin 2))).toInt := by
  have hm : (⟨1, h1⟩ : Fin (⟨2, ![M, N]⟩ : Shape).rank) ∈ (pairDims h).scatterDimsToOperandDims := by
    show (1 : Fin 2) ∈ ([0, 1] : List (Fin 2)); decide
  unfold ScatterDims.start
  rw [dif_pos hm, pair_siIdx h j]
  rfl

/-- Operand axis 0 is inserted: window coordinate 0. -/
theorem pair_window0 (j : (⟨2, ![A, B]⟩ : Shape).Idx) (h0) : (pairDims h).window j ⟨0, h0⟩ = 0 := by
  have hm : (⟨0, h0⟩ : Fin (⟨2, ![M, N]⟩ : Shape).rank) ∉ (pairDims h).sKept := by
    show (0 : Fin 2) ∉ (List.finRange 2).filter (· ∉ ([0, 1] : List (Fin 2))); decide
  unfold ScatterDims.window
  rw [dif_neg hm]

/-- Operand axis 1 is inserted: window coordinate 0. -/
theorem pair_window1 (j : (⟨2, ![A, B]⟩ : Shape).Idx) (h1) : (pairDims h).window j ⟨1, h1⟩ = 0 := by
  have hm : (⟨1, h1⟩ : Fin (⟨2, ![M, N]⟩ : Shape).rank) ∉ (pairDims h).sKept := by
    show (1 : Fin 2) ∉ (List.finRange 2).filter (· ∉ ([0, 1] : List (Fin 2))); decide
  unfold ScatterDims.window
  rw [dif_neg hm]

/-- Update `j` lands on `(r, n)` exactly when word `0` of its index vector, read signed, is `r` and word `1`,
    read signed, is `n`. -/
theorem pair_resultIdx_iff (j : (⟨2, ![A, B]⟩ : Shape).Idx) (idx : IVec (⟨3, ![A, B, 2]⟩ : Shape) w)
    (r : Fin M) (n : Fin N) :
    (pairDims h).resultIdx? j idx = some (ix2 r n) ↔
      (idx (ix3 (j 0) (j 1) (0 : Fin 2))).toInt = (r.val : ℤ) ∧
        (idx (ix3 (j 0) (j 1) (1 : Fin 2))).toInt = (n.val : ℤ) := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      have b1 := (hb ⟨1, Nat.one_lt_two⟩).1
      simp only [pair_start0, pair_start1, pair_window0, pair_window1] at e0 e1 b0 b1
      refine ⟨?_, ?_⟩
      · change _ = r.val at e0; omega
      · change _ = n.val at e1; omega
    · rintro ⟨hr, hn⟩
      funext a; refine Fin.ext ?_
      match a with
      | ⟨0, h0⟩ =>
        show ((pairDims h).start j idx ⟨0, h0⟩ + ((pairDims h).window j ⟨0, h0⟩ : ℕ)).toNat = r.val
        rw [pair_start0, pair_window0, hr]; omega
      | ⟨1, h1⟩ =>
        show ((pairDims h).start j idx ⟨1, h1⟩ + ((pairDims h).window j ⟨1, h1⟩ : ℕ)).toNat = n.val
        rw [pair_start1, pair_window1, hn]; omega
  · rename_i hb
    constructor
    · intro he; cases he
    · rintro ⟨hr, hn⟩
      exfalso; apply hb
      intro a
      match a with
      | ⟨0, _⟩ =>
        show 0 ≤ _ ∧ _ < ((M : ℕ) : ℤ)
        rw [pair_start0, pair_window0, hr]; have := r.isLt; omega
      | ⟨1, _⟩ =>
        show 0 ≤ _ ∧ _ < ((N : ℕ) : ℤ)
        rw [pair_start1, pair_window1, hn]; have := n.isLt; omega

/-- The scatter at `(r, n)`, over the named dimension numbers. -/
theorem pair_sum (x : (⟨2, ![M, N]⟩ : Shape).Idx → EReal) (idx : IVec (⟨3, ![A, B, 2]⟩ : Shape) w)
    (upd : (⟨2, ![A, B]⟩ : Shape).Idx → EReal) (r : Fin M) (n : Fin N) :
    Ideal.hostScatterAdd (pairDims h) x idx upd (ix2 r n)
      = x (ix2 r n) + ∑ a : Fin A, ∑ b : Fin B,
          if (idx (ix3 a b (0 : Fin 2))).toInt = (r.val : ℤ) ∧ (idx (ix3 a b (1 : Fin 2))).toInt = (n.val : ℤ)
            then upd (ix2 a b) else 0 := by
  unfold Ideal.hostScatterAdd
  congr 1
  rw [Finset.sum_filter, sum_idx2]
  refine Finset.sum_congr rfl fun a _ => Finset.sum_congr rfl fun b _ => ?_
  have hiff : ((pairDims h).resultIdx? (ix2 a b) idx = some (ix2 r n)) ↔
      ((idx (ix3 a b (0 : Fin 2))).toInt = (r.val : ℤ) ∧ (idx (ix3 a b (1 : Fin 2))).toInt = (n.val : ℤ)) :=
    pair_resultIdx_iff h (ix2 a b) idx r n
  simp only [hiff]
end Pairs

/-! ## The layout, over its literal dimension numbers -/

/-- An accumulating scatter with two index words per update (operand `[M, N]`, scatter indices `[A, B, 2]` with
    the index vector last, updates `[A, B]`, no window axis), read at `(r, n)`: the operand's element plus the sum
    over the updates `(a, b)` of the update element where word `0`, read signed, is `r` and word `1`, read signed,
    is `n`, and `0` elsewhere. -/
theorem scatterAdd_pairs {M N A B w : Nat}
    (h : ScatterDims.WF (⟨2, ![M, N]⟩ : Shape) (⟨3, ![A, B, 2]⟩ : Shape) (⟨2, ![A, B]⟩ : Shape) [] [0, 1] [0, 1] 2)
    (x : (⟨2, ![M, N]⟩ : Shape).Idx → EReal) (idx : IVec (⟨3, ![A, B, 2]⟩ : Shape) w)
    (upd : (⟨2, ![A, B]⟩ : Shape).Idx → EReal) (r : Fin M) (n : Fin N) :
    Ideal.hostScatterAdd (⟨[], [0, 1], [0, 1], 2, h⟩ : ScatterDims (⟨2, ![M, N]⟩ : Shape) (⟨3, ![A, B, 2]⟩ : Shape) (⟨2, ![A, B]⟩ : Shape)) x idx upd (ix2 r n)
      = x (ix2 r n) + ∑ a : Fin A, ∑ b : Fin B,
          if (idx (ix3 a b (0 : Fin 2))).toInt = (r.val : ℤ) ∧ (idx (ix3 a b (1 : Fin 2))).toInt = (n.val : ℤ) then upd (ix2 a b) else 0 := by
  exact pair_sum h x idx upd r n

end Cert.LibScatterPair

end
-- ==== Proof.RefValue.lean ====
/-
  THE REFERENCE'S VALUE. The reference builds, for each of 2048 batch columns, the bag-of-words counts over a
  vocabulary of 100000 by an accumulating scatter of the update 1 at the index pairs (batch column, token), both
  index words first passed through the wrap of negative indices (a word below zero has the extent added); it then
  multiplies the counts by the transposed weights, adds the bias and drops the unit axis. Read at an index: the
  batch word of update (s, b') is the word of b', which is not negative, so the wrap keeps it and its signed value
  is b'; the token word is the token itself when the token is not negative. So the scatter at (b, k) is the number
  of rows s whose token in column b, read signed, is k — the count of the layer's statement — and the dot product
  against the weights is the weighted count.
-/
import proofs.«420262_j8151847928094_4_alg».proof.Proof.Gen.ReferenceIdeal.Read
import proofs.«420262_j8151847928094_4_alg».proof.Proof.Spec
import proofs.«420262_j8151847928094_4_alg».proof.Proof.LibScatterPair
import Idealize.ShloMosaic.Lib.Pipeline.Value
import Idealize.ShloMosaic.Lib.ValueIdx
import Idealize.ShloMosaic.PureOps.Ideal.Laws
import Idealize.ShloMosaic.PureOps.IdealRules

noncomputable section

namespace Cert.ReferenceIdeal.RefValue
open Cert.ReferenceIdeal Cert.ReferenceIdeal.Read Idealize.ShloMosaic Idealize.ShloMosaic.ValueIdx
open scoped BigOperators

/-! ## The two index words -/

/-- The batch iota broadcast over the rows: at (s, b) the word of b. -/
theorem v2_at (s : Fin 200) (b : Fin 2048) :
    val_main_v2 (F := Ideal) (ix2 s b) = BitVec.ofNat 32 b.val := by
  rw [val_main_v2_apply, val_main_v1_apply, val_main_v0_apply]

/-- A word that is not negative is not below zero in the signed order. -/
theorem cmpi_slt_zero_of_nonneg (x : BitVec 32) (hx : 0 ≤ x.toInt) : IntOp.cmpi .slt x 0#32 = 0#1 := by
  unfold IntOp.cmpi
  have h : x.slt 0#32 = false := by
    simp only [BitVec.slt, BitVec.toInt_zero, decide_eq_false_iff_not, not_lt]
    exact hx
  show BitVec.ofBool (x.slt 0#32) = 0#1
  rw [h]; rfl

/-- The wrapped batch word: the iota is never negative, so the wrap keeps it. -/
theorem v8_at (s : Fin 200) (b : Fin 2048) :
    val_main_v8 (F := Ideal) (ix2 s b) = BitVec.ofNat 32 b.val := by
  rw [val_main_v8_apply, val_main_v5_apply, val_main_v4_apply, val_main_c_apply, v2_at]
  have hb : 0 ≤ (BitVec.ofNat 32 b.val).toInt := by
    rw [Cert.LibSegmentSum.toInt_ofNat_small b.val (by have := b.isLt; omega)]; omega
  rw [cmpi_slt_zero_of_nonneg _ hb, select_zero]

/-- The wrapped token word: a token that is not negative is kept. -/
theorem v13_at (x0 : (⟨S200x2048, .i32⟩ : BufTy).Contents (Elt Ideal)) (s : Fin 200) (b : Fin 2048)
    (h : 0 ≤ (x0 (ix2 s b)).toInt) :
    val_main_v13 (F := Ideal) x0 (ix2 s b) = x0 (ix2 s b) := by
  rw [val_main_v13_apply, val_main_v10_apply, val_main_v9_apply, val_main_c_1_apply,
    cmpi_slt_zero_of_nonneg _ h, select_zero]

/-- Word 0 of update (s, b)'s index vector is the batch word. -/
theorem v16_at_0 (x0 : (⟨S200x2048, .i32⟩ : BufTy).Contents (Elt Ideal)) (s : Fin 200) (b : Fin 2048) :
    val_main_v16 (F := Ideal) x0 (ix3 s b (0 : Fin 2)) = BitVec.ofNat 32 b.val := by
  unfold val_main_v16
  refine (concatenate_pair_apply_left (t := S200x2048x2) (s₁ := S200x2048x1) (s₂ := S200x2048x1) 2 _ _ _ (ix3 s b (0 : Fin 2)) rfl (ix3 s b (0 : Fin 1)) (fun c => by
    match c with
    | ⟨0, _⟩ => rfl
    | ⟨1, _⟩ => rfl
    | ⟨2, _⟩ => rfl)).trans ?_
  rw [val_main_v14_apply]
  have e : idx_main_v14 (ix3 s b (0 : Fin 1)) = ix2 s b := by
    funext a; match a with
    | ⟨0, _⟩ => rfl
    | ⟨1, _⟩ => rfl
  rw [e, v8_at]

/-- Word 1 of update (s, b)'s index vector is the token, when it is not negative. -/
theorem v16_at_1 (x0 : (⟨S200x2048, .i32⟩ : BufTy).Contents (Elt Ideal)) (s : Fin 200) (b : Fin 2048)
    (h : 0 ≤ (x0 (ix2 s b)).toInt) :
    val_main_v16 (F := Ideal) x0 (ix3 s b (1 : Fin 2)) = x0 (ix2 s b) := by
  unfold val_main_v16
  refine (concatenate_pair_apply_right (t := S200x2048x2) (s₁ := S200x2048x1) (s₂ := S200x2048x1) 2 _ _ _ (ix3 s b (1 : Fin 2)) rfl rfl (ix3 s b (0 : Fin 1)) (fun c hc => by
    match c with
    | ⟨0, _⟩ => rfl
    | ⟨1, _⟩ => rfl
    | ⟨2, _⟩ => exact absurd rfl hc) rfl).trans ?_
  rw [val_main_v15_apply]
  have e : idx_main_v15 (ix3 s b (0 : Fin 1)) = ix2 s b := by
    funext a; match a with
    | ⟨0, _⟩ => rfl
    | ⟨1, _⟩ => rfl
  rw [e, v13_at x0 s b h]

/-! ## The scatter -/

/-- The operand of the scatter is zero everywhere. -/
theorem v3_at (i : S2048x100000.Idx) : val_main_v3 (F := Ideal) i = 0 := by
  rw [val_main_v3_apply, val_main_cst_apply]
  exact Ideal.ofBits_zero_f32

/-- Every update is one. -/
theorem v17_at (i : S200x2048.Idx) : val_main_v17 (F := Ideal) i = 1 := by
  rw [val_main_v17_apply, val_main_cst_3_apply]
  exact IdealRules.sign_bit.ideal_onePat .f32

/-- Among the batch columns, the sum of the terms that ask the column to be b keeps the term of b alone. -/
theorem sum_col (b : Fin 2048) (P : Fin 2048 → Prop) [DecidablePred P] :
    (∑ b' : Fin 2048, if ((b'.val : ℤ) = (b.val : ℤ) ∧ P b') then (1 : EReal) else 0)
      = if P b then (1 : EReal) else 0 := by
  have key : ∀ b' : Fin 2048, (if ((b'.val : ℤ) = (b.val : ℤ) ∧ P b') then (1 : EReal) else 0)
      = if b' = b then (if P b then (1 : EReal) else 0) else 0 := by
    intro b'
    by_cases hb : b' = b
    · subst hb; simp
    · have hne : ¬ ((b'.val : ℤ) = (b.val : ℤ)) := fun h' => hb (Fin.ext (by exact_mod_cast h'))
      rw [if_neg hb, if_neg (fun h' => hne h'.1)]
  simp only [key]
  rw [Finset.sum_ite_eq']
  exact if_pos (Finset.mem_univ _)

/-- The scatter at (b, k): the number of rows of column b whose token, read signed, is k. -/
theorem v18_at (x0 : (⟨S200x2048, .i32⟩ : BufTy).Contents (Elt Ideal))
    (hnn : ∀ (s : Fin 200) (b : Fin 2048), 0 ≤ (x0 (ix2 s b)).toInt) (b : Fin 2048) (k : Fin 100000) :
    val_main_v18 (F := Ideal) x0 (ix2 b k)
      = ∑ s : Fin 200, if (x0 (ix2 s b)).toInt = (k.val : ℤ) then (1 : EReal) else 0 := by
  show Ideal.hostScatterAdd (⟨[], [0, 1], [0, 1], 2, Facts₀.scatter_S2048x100000_S200x2048x2_S200x2048_n_01_01_2_wf⟩ :
      ScatterDims S2048x100000 S200x2048x2 S200x2048) (val_main_v3 (F := Ideal)) (val_main_v16 (F := Ideal) x0)
      (val_main_v17 (F := Ideal)) (ix2 b k) = _
  refine (Cert.LibScatterPair.scatterAdd_pairs _ _ _ _ b k).trans ?_
  rw [v3_at, zero_add]
  refine Finset.sum_congr rfl fun s _ => ?_
  have e : ∀ b' : Fin 2048,
      (if (val_main_v16 (F := Ideal) x0 (ix3 s b' (0 : Fin 2))).toInt = (b.val : ℤ)
          ∧ (val_main_v16 (F := Ideal) x0 (ix3 s b' (1 : Fin 2))).toInt = (k.val : ℤ)
        then val_main_v17 (F := Ideal) (ix2 s b') else 0)
      = if ((b'.val : ℤ) = (b.val : ℤ) ∧ (x0 (ix2 s b')).toInt = (k.val : ℤ)) then (1 : EReal) else 0 := by
    intro b'
    rw [v16_at_0, v16_at_1 x0 s b' (hnn s b'), v17_at,
      Cert.LibSegmentSum.toInt_ofNat_small b'.val (by have := b'.isLt; omega)]
  refine (Finset.sum_congr rfl fun b' _ => e b').trans ?_
  exact sum_col b (fun b' => (x0 (ix2 s b')).toInt = (k.val : ℤ))

/-! ## The layer -/

/-- With every token identifier nonnegative, the reference's result is the bag-of-words layer. -/
theorem val_eq_bow (x0 : (⟨S200x2048, .i32⟩ : BufTy).Contents (Elt Ideal)) (x1 : (⟨S1x100000, .f32⟩ : BufTy).Contents (Elt Ideal)) (x2 : (⟨S1, .f32⟩ : BufTy).Contents (Elt Ideal))
    (hnn : ∀ (s : Fin 200) (b : Fin 2048), 0 ≤ (x0 (ix2 s b)).toInt) :
    Cert.ReferenceIdeal.Read.val_main_v24 (F := Ideal) x0 x1 x2 = Cert.BagOfWords.bow x0 x1 x2 := by
  funext i
  obtain ⟨b, rfl⟩ : ∃ b : Fin 2048, i = ix1 b := ⟨i 0, eq_ix1 i⟩
  rw [Cert.BagOfWords.bow_apply, val_main_v24_apply, val_main_v23_apply]
  have e24 : idx_main_v24 (ix1 b) = ix2 b (0 : Fin 1) := by
    funext a; match a with
    | ⟨0, _⟩ => exact Fin.ext (Nat.div_one _)
    | ⟨1, _⟩ => rfl
  rw [e24, val_main_v22_apply, val_main_v21_apply, val_main_v20_apply]
  have e21 : idx_main_v21 (idx_main_v22 (ix2 b (0 : Fin 1))) = ix1 (0 : Fin 1) := by
    funext a; match a with
    | ⟨0, _⟩ => rfl
  rw [e21]
  show (∑ k : Fin 100000, _) + x2 (ix1 (0 : Fin 1)) = _
  refine congrArg (fun t : EReal => t + x2 (ix1 (0 : Fin 1))) ?_
  unfold Cert.BagOfWords.weighted
  refine Finset.sum_congr rfl fun k _ => ?_
  have el : lidx_main_v20 (ix2 b (0 : Fin 1)) k = ix2 b k := by
    funext a; match a with
    | ⟨0, _⟩ => rfl
    | ⟨1, _⟩ => rfl
  have er : idx_main_v19 (ridx_main_v20 (ix2 b (0 : Fin 1)) k) = ix2 (0 : Fin 1) k := by
    funext a; match a with
    | ⟨0, _⟩ => rfl
    | ⟨1, _⟩ => rfl
  rw [el, val_main_v19_apply, er, v18_at x0 hnn b k, mul_comm]
  rfl

end Cert.ReferenceIdeal.RefValue

end
-- ==== Proof.TokensNonneg.lean ====
/-
  THE PRECONDITION'S INTEGER CONJUNCT, READ BACK. The printed precondition is the conjunction of three one-bit words:
  the two finiteness tests on the float arguments and `jnp.all(text ≥ 0)`, the last printed as a reduce by `and`,
  from the constant 1 and over both axes, of the signed comparison of every token identifier with a broadcast zero.
  The whole being 1, its last conjunct is 1; a reduce by `and` into a result of one index that is 1 met a 1 at every
  operand index; and the comparison bit `text (s, b) ≥ 0` (signed) being 1 says that the word, read as a signed
  integer, is at least the zero word's reading, which is 0. Nothing in this conjunct depends on the float instance.
-/
import proofs.«420262_j8151847928094_4_alg».proof.Pre_finite_inputs
import Idealize.ShloMosaic.Lib.ValueIdx
import Idealize.ShloMosaic.Lib.ReduceAll
import Idealize.ShloMosaic.Lib.StableHlo.Predicate

noncomputable section

open Idealize.ShloMosaic Idealize.ShloMosaic.ValueIdx

namespace Cert.BagOfWords

/-- Under the precondition every token identifier, read as a signed word, is nonnegative. -/
theorem tokens_nonneg [Cert.Pre_finite_inputs.Facts] {F : FTy → Type} [FloatOps F]
    (text : IVec (⟨2, ![200, 2048]⟩ : Shape) 32) (w : FVec F (⟨2, ![1, 100000]⟩ : Shape) .f32) (bias : FVec F (⟨1, ![1]⟩ : Shape) .f32)
    (h : Cert.Pre_finite_inputs.fn (F := F) text w bias = fun _ => 1#1) :
    ∀ (s : Fin 200) (b : Fin 2048), 0 ≤ (text (ix2 s b)).toInt := by
  intro s b
  -- the one element of the rank-0 result
  have h0 := congrFun h ValueIdx.ix0
  dsimp only [Cert.Pre_finite_inputs.fn] at h0
  -- the last conjunct of the conjunction
  have h1 := (IntOp.andi_eq_one.1 h0).2
  -- the reduce by `and` over every axis met a 1 at every index
  haveI : Subsingleton (Cert.Pre_finite_inputs.S_).Idx := ⟨fun a b => funext fun d => d.elim0⟩
  have h2 := Host.reduce_andi_all _ _ _ _ _ h1 (ix2 s b)
  -- the comparison bit at `(s, b)`: the broadcast constant reads 0 there
  change IntOp.cmpi .sge (text (ix2 s b)) (0#32) = 1#1 at h2
  simp only [IntOp.cmpi, StableHlo.Predicate.ofBool_eq_one_iff] at h2
  have h3 := BitVec.sle_iff_toInt_le.1 h2
  rwa [BitVec.toInt_zero] at h3

end Cert.BagOfWords

end
-- ==== Proof.lean ====
/-
  THE BAG-OF-WORDS LINEAR LAYER, kernel against reference. At batch column `b` the layer is the sum over the
  vocabulary of the weight of an entry times the number of the column's 200 tokens that equal the entry, plus the bias.

  The kernel evaluates it tile by tile: for 1024 batch columns and 128 vocabulary entries at a time it counts the
  matches as a one-hot histogram, eight token rows at a time, multiplies the 128 weights of the tile into the counts
  as a matrix product, and accumulates over the 782 vocabulary tiles; the weight row is padded with 96 zeros to
  782 × 128 entries beforehand, and a zero weight erases whatever its entry counts. The reference scatters a one for
  every token into a 2048 × 100000 table of counts at (batch column, token identifier) and takes the table's product
  with the weights, then adds the bias.

  The two agree when every token identifier, read as a signed word, is nonnegative, which the precondition states:
  an identifier in `[0, 100000)` is counted once by both; one at or above 100000 lands outside the reference's table,
  and in the kernel's tiles it meets a zero weight of the padding or no entry at all; but a NEGATIVE identifier is
  wrapped by the reference's indexing onto the entry 100000 places up, while in the kernel it equals no entry. Under the precondition both results are the
  layer; each program also runs to the end with its arguments unchanged.
-/
import proofs.«420262_j8151847928094_4_alg».proof.Defs
import proofs.«420262_j8151847928094_4_alg».proof.Proof.Gen.Kernel
import proofs.«420262_j8151847928094_4_alg».proof.Proof.Gen.Kernel.Skeleton
import proofs.«420262_j8151847928094_4_alg».proof.Proof.Gen.Kernel.Launch
import proofs.«420262_j8151847928094_4_alg».proof.Proof.Gen.Kernel.Points
import proofs.«420262_j8151847928094_4_alg».proof.Proof.Gen.Kernel.Frame
import proofs.«420262_j8151847928094_4_alg».proof.Proof.Gen.KernelIdeal
import proofs.«420262_j8151847928094_4_alg».proof.Proof.Gen.KernelIdeal.Skeleton
import proofs.«420262_j8151847928094_4_alg».proof.Proof.Gen.KernelIdeal.Launch
import proofs.«420262_j8151847928094_4_alg».proof.Proof.Gen.KernelIdeal.Points
import proofs.«420262_j8151847928094_4_alg».proof.Proof.Gen.KernelIdeal.Frame
import proofs.«420262_j8151847928094_4_alg».proof.Proof.Gen.ReferenceIdeal
import proofs.«420262_j8151847928094_4_alg».proof.Proof.Gen.ReferenceIdeal.Run
import proofs.«420262_j8151847928094_4_alg».proof.Proof.Gen.ReferenceIdeal.Read
import proofs.«420262_j8151847928094_4_alg».proof.Proof.Gen.Pre_finite_inputs
import proofs.«420262_j8151847928094_4_alg».proof.Proof.KernelValue
import proofs.«420262_j8151847928094_4_alg».proof.Proof.RefValue
import proofs.«420262_j8151847928094_4_alg».proof.Proof.TokensNonneg
import Idealize.ShloMosaic.Adequacy
import Idealize.ShloMosaic.Init

noncomputable section

namespace Cert.Proof

open Idealize.ShloMosaic Idealize.SL.Sem Cert.Kernel

/-! ## The five claims -/

namespace BagOfWordsClaims

/-- The kernel as printed runs to the end and leaves its arguments as they were. -/
theorem frame_p : Cert.frame_Kernel := fun m ρ _ => Cert.Kernel.Gen.frame m ρ

/-- So does the kernel read over the extended reals. -/
theorem frame_pi : Cert.frame_KernelIdeal := fun m ρ _ => Cert.KernelIdeal.Gen.frame m ρ

/-- So does the reference: its run gives the result and the unchanged arguments, of which the frame keeps the
    arguments. -/
theorem frame_ri : Cert.frame_ReferenceIdeal := fun m ρ _ =>
  (θ_run Cert.ReferenceIdeal.defs _ _).mono (fun _ h c => (h c).2) (Cert.ReferenceIdeal.Value.run (F := Ideal) m ρ)

/-- The kernel over the extended reals is the printed kernel's own text: no operation was rewritten. -/
theorem preserves : Cert.preserves_Kernel_KernelIdeal := trivial

/-- From arguments that agree, with every token identifier nonnegative, both programs end at the layer of the
    arguments: the kernel by its tiled evaluation, the reference because its scatter and product compute the same
    weighted counts once no identifier is negative. -/
theorem algebraic : Cert.algebraic_KernelIdeal_ReferenceIdeal := by
  intro m ρ m' ρ' hpre hagree
  refine ⟨_, Cert.KernelIdeal.HistValue.run m ρ, ?_⟩
  refine (θ_run Cert.ReferenceIdeal.defs _ _).mono (fun _ h c => ⟨(h c).1.trans ?_, (h c).2⟩)
    (Cert.ReferenceIdeal.Value.run (F := Ideal) m' ρ')
  have hnn := Cert.BagOfWords.tokens_nonneg (F := Ideal) _ _ _ (hpre c)
  rw [(hagree c).1, (hagree c).2.1, (hagree c).2.2]
  exact (Cert.ReferenceIdeal.Read.val_main_v24_eq _ _ _).trans (Cert.ReferenceIdeal.RefValue.val_eq_bow _ _ _ hnn)

end BagOfWordsClaims

theorem claim : Cert.Claim := ⟨Cert.Kernel.Gen.facts, Cert.KernelIdeal.Gen.facts, Cert.ReferenceIdeal.Gen.facts, Cert.Pre_finite_inputs.Gen.facts,
  BagOfWordsClaims.frame_p, BagOfWordsClaims.frame_pi, BagOfWordsClaims.frame_ri, BagOfWordsClaims.preserves,
  BagOfWordsClaims.algebraic⟩

end Cert.Proof

end
